-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S64x256 : Shape := ⟨2, ![64, 256]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x256 .f32) (main_arg9 : FVec F S64 .f32) (main_v33 : IVec S_ 1) : IVec S_ 1 :=
  let main_v34 : FVec F S64x256 .f32 := Host.absf main_arg8
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S64x256 .f32) (main_arg9 : FVec F S64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x1600000 32) (main_arg2 : FVec F S128x128 .f32) (main_arg3 : FVec F S128 .f32) (main_arg4 : FVec F S128x256 .f32) (main_arg5 : FVec F S128 .f32) (main_arg6 : FVec F S128x128 .f32) (main_arg7 : FVec F S128 .f32) (main_arg8 : FVec F S64x256 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S64x256 : Shape := ⟨2, ![64, 256]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S2000x128 : Shape := ⟨2, ![2000, 128]⟩
abbrev S1650000x128 : Shape := ⟨2, ![1650000, 128]⟩
abbrev S1x128 : Shape := ⟨2, ![1, 128]⟩
abbrev S64x128 : Shape := ⟨2, ![64, 128]⟩
abbrev S1x64 : Shape := ⟨2, ![1, 64]⟩
abbrev S50000x64 : Shape := ⟨2, ![50000, 64]⟩
abbrev S2000x64 : Shape := ⟨2, ![2000, 64]⟩
abbrev S128x64 : Shape := ⟨2, ![128, 64]⟩

abbrev nBuf : Space → Nat
  | .hbm => 101
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x256, .f32⟩
  | .hbm, ⟨9, _⟩ => ⟨S64, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S50000x128, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x128, .f32⟩
  | .hbm, ⟨60, _⟩ => ⟨S1650000x1, .f32⟩
  | .hbm, ⟨61, _⟩ => ⟨S1650000x128, .f32⟩
  | .hbm, ⟨62, _⟩ => ⟨S1650000x128, .f32⟩
  | .hbm, ⟨63, _⟩ => ⟨S_, .f32⟩
  | .hbm, ⟨64, _⟩ => ⟨S50000x128, .f32⟩
  | .hbm, ⟨65, _⟩ => ⟨S1650000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S128x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S1650000, .i32⟩
  | .hbm, ⟨80, _⟩ => ⟨S1650000, .i1⟩
  | .hbm, ⟨81, _⟩ => ⟨S_, .i32⟩
  | .hbm, ⟨82, _⟩ => ⟨S1650000, .i32⟩
  | .hbm, ⟨83, _⟩ => ⟨S1650000, .i32⟩
  | .hbm, ⟨84, _⟩ => ⟨S1650000, .i32⟩
  | .hbm, ⟨85, _⟩ => ⟨S1650000x1, .i32⟩
  | .hbm, ⟨86, _⟩ => ⟨S1650000x128, .f32⟩
  | .hbm, ⟨87, _⟩ => ⟨S1650000x1, .f32⟩
  | .hbm, ⟨88, _⟩ => ⟨S1650000x128, .f32⟩
  | .hbm, ⟨89, _⟩ => ⟨S1650000x128, .f32⟩
  | .hbm, ⟨90, _⟩ => ⟨S_, .f32⟩
  | .hbm, ⟨91, _⟩ => ⟨S50000x128, .f32⟩
  | .hbm, ⟨92, _⟩ => ⟨S1650000x1, .i32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S64x128, .f32⟩
  | .hbm, ⟨98, _⟩ => ⟨S64x128, .f32⟩
  | .hbm, ⟨99, _⟩ => ⟨S1x64, .f32⟩
  | .hbm, ⟨100, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S64x128, .f32⟩
  | .local _ .vmem, ⟨24, _⟩ => ⟨S64x128, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S128x256_S128x128_0_0 : S128x256.Slices ![0, 0] S128x128
  slices_S128x256_S128x128_0_128 : S128x256.Slices ![0, 128] S128x128
  shapeCasts_S128_S1x128 : S128.ShapeCasts S1x128
  shapeCasts_S2000x128_S2000x128 : S2000x128.ShapeCasts S2000x128
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S64x256_S64x128_0_0 : S64x256.Slices ![0, 0] S64x128
  slices_S64x256_S64x128_0_128 : S64x256.Slices ![0, 128] S64x128
  shapeCasts_S64_S1x64 : S64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x128_S128x128_S2000x128_1_0_0_1_n_n_wf : DotDims.WF S2000x128 S128x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .f32 = 32 ∨ (Rect.block (s := S50000x64) S2000x64.size (cc3_transform_5 i) (hinb3_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S64x256 : Shape := ⟨2, ![64, 256]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x256 : Shape := ⟨2, ![50000, 256]⟩
abbrev S256x128 : Shape := ⟨2, ![256, 128]⟩
abbrev S256x64 : Shape := ⟨2, ![256, 64]⟩
abbrev S50000x64 : Shape := ⟨2, ![50000, 64]⟩
abbrev S1x64 : Shape := ⟨2, ![1, 64]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x256, .f32⟩
  | .hbm, ⟨9, _⟩ => ⟨S64, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S128x128, .f32⟩
  | .hbm, ⟨51, _⟩ => ⟨S50000x128, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x128, .f32⟩
  | .hbm, ⟨61, _⟩ => ⟨S1650000x1, .f32⟩
  | .hbm, ⟨62, _⟩ => ⟨S1650000x128, .f32⟩
  | .hbm, ⟨63, _⟩ => ⟨S1650000x128, .f32⟩
  | .hbm, ⟨64, _⟩ => ⟨S_, .f32⟩
  | .hbm, ⟨65, _⟩ => ⟨S50000x128, .f32⟩
  | .hbm, ⟨66, _⟩ => ⟨S1650000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x256, .f32⟩
  | .hbm, ⟨75, _⟩ => ⟨S256x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S128x128, .f32⟩
  | .hbm, ⟨84, _⟩ => ⟨S50000x128, .f32⟩
  | .hbm, ⟨85, _⟩ => ⟨S_, .i32⟩
  | .hbm, ⟨86, _⟩ => ⟨S1650000, .i32⟩
  | .hbm, ⟨87, _⟩ => ⟨S1650000, .i1⟩
  | .hbm, ⟨88, _⟩ => ⟨S_, .i32⟩
  | .hbm, ⟨89, _⟩ => ⟨S1650000, .i32⟩
  | .hbm, ⟨90, _⟩ => ⟨S1650000, .i32⟩
  | .hbm, ⟨91, _⟩ => ⟨S1650000, .i32⟩
  | .hbm, ⟨92, _⟩ => ⟨S1650000x1, .i32⟩
  | .hbm, ⟨93, _⟩ => ⟨S1650000x128, .f32⟩
  | .hbm, ⟨94, _⟩ => ⟨S1650000x1, .f32⟩
  | .hbm, ⟨95, _⟩ => ⟨S1650000x128, .f32⟩
  | .hbm, ⟨96, _⟩ => ⟨S1650000x128, .f32⟩
  | .hbm, ⟨97, _⟩ => ⟨S_, .f32⟩
  | .hbm, ⟨98, _⟩ => ⟨S50000x128, .f32⟩
  | .hbm, ⟨99, _⟩ => ⟨S1650000x1, .i32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S50000x256, .f32⟩
  | .hbm, ⟨105, _⟩ => ⟨S256x64, .f32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call2_cst : Ref sig .tc := ⟨.hbm, 80, rfl⟩
abbrev main_call2_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_9 : Ref sig .tc := ⟨.hbm, 85, rfl⟩
abbrev main_v58 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  transposes_S128x128_S128x128_1_0 : S128x128.Transposes [1, 0] S128x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x256_S256x128_S50000x128_1_0_0_1_n_n_wf : DotDims.WF S50000x256 S256x128 S50000x128 [1] [0] [0] [1] [] []
  dot_S50000x256_S256x64_S50000x64_1_0_0_1_n_n_wf : DotDims.WF S50000x256 S256x64 S50000x64 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.RefWalk.lean ====
/-
  The reference's @main, read stage by stage.

  @main is a straight line of 100 host operations; run from the launch contents, each buffer ends at the fold of the
  operations' results. Reading that fold for the result buffer in one piece would build one term in which the edge
  coefficients, the node ids and both hidden layers occur many times over; read a stretch at a time instead, every
  buffer a later stretch needs is one of the stage functions `val_main_vN` of the launch arguments, and the last
  stretch's result is `val_main_v79` of all ten.
-/
import proofs.«124133_j5342939316780_1_alg».proof.Proof.RefRun
import proofs.«124133_j5342939316780_1_alg».proof.Proof.RefRead
import Idealize.ShloMosaic.Lib.StableHlo.Run

set_option maxRecDepth 16384

noncomputable section

namespace Cert.ReferenceIdeal.RefWalk
open Cert.ReferenceIdeal Cert.ReferenceIdeal.Gen Idealize.ShloMosaic Idealize.ShloMosaic.TcCoe Idealize.SL.Sem Idealize.ShloMosaic.StableHlo
open Cert.ReferenceIdeal.ReadP

/-! ## An inlined call's buffers

The operations of an inlined call read and write their buffers at the type each value has in the callee. At these
buffers that type is the buffer's own, so the move to it and back is the identity. -/

/-- A value moved to a buffer's own type and back is the value. -/
theorem ofBuf_toBuf {T : BufTy} (x : TRef sig T) (v : T.Contents (Elt Ideal)) : x.ofBuf (x.toBuf v) = v := by
  obtain ⟨r, rfl, _, _⟩ := x
  rfl

/-- At a buffer's own type the move is the identity. -/
theorem toBuf_self (r : Ref sig .tc) (p : r.ty = r.ty) (q : r.space ≠ .host) (s : r.isScoped = false)
    (v : r.ty.Contents (Elt Ideal)) : (TRef.of (T := r.ty) r p q s).toBuf v = v := rfl

theorem ofBuf_self (r : Ref sig .tc) (p : r.ty = r.ty) (q : r.space ≠ .host) (s : r.isScoped = false)
    (v : r.ty.Contents (Elt Ideal)) : (TRef.of (T := r.ty) r p q s).ofBuf v = v := rfl

variable (W : Valuation τ sig (Elt Ideal))

/-- The buffers after the first stretches of @main, one after the other, from contents `W`. -/
abbrev atA : Valuation τ sig (Elt Ideal) := after (ValueP.opsA (F := Ideal)) W
abbrev atB : Valuation τ sig (Elt Ideal) := after (ValueP.opsB (F := Ideal)) (atA W)
abbrev atC : Valuation τ sig (Elt Ideal) := after (ValueP.opsC (F := Ideal)) (atB W)
abbrev atD : Valuation τ sig (Elt Ideal) := after (ValueP.opsD (F := Ideal)) (atC W)
abbrev atE : Valuation τ sig (Elt Ideal) := after (ValueP.opsE (F := Ideal)) (atD W)
abbrev atF : Valuation τ sig (Elt Ideal) := after (ValueP.opsF (F := Ideal)) (atE W)
abbrev atG : Valuation τ sig (Elt Ideal) := after (ValueP.opsG (F := Ideal)) (atF W)
abbrev atH : Valuation τ sig (Elt Ideal) := after (ValueP.opsH (F := Ideal)) (atG W)

/-! ## One stretch at a time

Each stretch from arbitrary contents `W`: given that the buffers it reads hold the stage functions the earlier
stretches left (and the launch arguments), the buffer a later stretch reads holds the next stage function. -/

theorem chunkA_v3 (x1 : (⟨S2x1600000, .i32⟩ : BufTy).Contents (Elt Ideal)) (ha1 : W (Proc.devRef .tc main_arg1) = x1) :
    after (ValueP.opsA (F := Ideal)) W (Proc.devRef .tc main_v3) = val_main_v3 (F := Ideal) x1 := by
  after_results
  rw [ha1]
  rfl

theorem chunkA_v6 (x1 : (⟨S2x1600000, .i32⟩ : BufTy).Contents (Elt Ideal)) (ha1 : W (Proc.devRef .tc main_arg1) = x1) :
    after (ValueP.opsA (F := Ideal)) W (Proc.devRef .tc main_v6) = val_main_v6 (F := Ideal) x1 := by
  after_results
  rw [ha1]
  rfl

theorem chunkA_v12 (x1 : (⟨S2x1600000, .i32⟩ : BufTy).Contents (Elt Ideal)) (ha1 : W (Proc.devRef .tc main_arg1) = x1) :
    after (ValueP.opsA (F := Ideal)) W (Proc.devRef .tc main_v12) = val_main_v12 (F := Ideal) x1 := by
  after_results
  rw [ha1]
  rfl

theorem chunkA_v13 (x1 : (⟨S2x1600000, .i32⟩ : BufTy).Contents (Elt Ideal)) (ha1 : W (Proc.devRef .tc main_arg1) = x1) :
    after (ValueP.opsA (F := Ideal)) W (Proc.devRef .tc main_v13) = val_main_v13 (F := Ideal) x1 := by
  after_results
  rw [ha1]
  rfl

theorem chunkA_cst_2 : after (ValueP.opsA (F := Ideal)) W (Proc.devRef .tc main_cst_2) = val_main_cst_2 (F := Ideal) := by
  after_results
  rfl

/-- The reciprocal square root of the in-degree where it is positive, zero elsewhere. -/
theorem chunkB_v14 (x1 : (⟨S2x1600000, .i32⟩ : BufTy).Contents (Elt Ideal)) (hc : W (Proc.devRef .tc main_cst_2) = val_main_cst_2 (F := Ideal))
    (h12 : W (Proc.devRef .tc main_v12) = val_main_v12 (F := Ideal) x1) (h13 : W (Proc.devRef .tc main_v13) = val_main_v13 (F := Ideal) x1) :
    after (ValueP.opsB (F := Ideal)) W (Proc.devRef .tc main_v14) = val_main_v14 (F := Ideal) x1 := by
  after_results_simp
  rw [hc, h12, h13]
  simp only [ofBuf_toBuf]
  unfold val_main_v14 val_main_call0_v1 val_main_call0_v0
  generalize val_main_v12 (F := Ideal) x1 = a
  generalize val_main_v13 (F := Ideal) x1 = b
  generalize val_main_cst_2 (F := Ideal) = c
  erw [toBuf_self main_v14, ofBuf_self main_v12, ofBuf_self main_v13, ofBuf_self main_cst_2]

/-- The normalisation coefficient of every edge. -/
theorem chunkC_v29 (x1 : (⟨S2x1600000, .i32⟩ : BufTy).Contents (Elt Ideal)) (h3 : W (Proc.devRef .tc main_v3) = val_main_v3 (F := Ideal) x1) (h6 : W (Proc.devRef .tc main_v6) = val_main_v6 (F := Ideal) x1)
    (h14 : W (Proc.devRef .tc main_v14) = val_main_v14 (F := Ideal) x1) :
    after (ValueP.opsC (F := Ideal)) W (Proc.devRef .tc main_v29) = val_main_v29 (F := Ideal) x1 := by
  after_results_simp
  rw [h3, h6, h14]
  rfl

/-- `h1`: the features times the transposed first weight. -/
theorem chunkD_v31 (x0 : (⟨S50000x128, .f32⟩ : BufTy).Contents (Elt Ideal)) (x2 : (⟨S128x128, .f32⟩ : BufTy).Contents (Elt Ideal)) (ha0 : W (Proc.devRef .tc main_arg0) = x0) (ha2 : W (Proc.devRef .tc main_arg2) = x2) :
    after (ValueP.opsD (F := Ideal)) W (Proc.devRef .tc main_v31) = val_main_v31 (F := Ideal) x0 x2 := by
  after_results_simp
  rw [ha0, ha2]
  rfl

/-- The first hidden layer before its clamp, and clamped: the aggregation of `h1` over the edges plus the bias. -/
theorem chunkE_v48 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
    (h3 : W (Proc.devRef .tc main_v3) = val_main_v3 (F := Ideal) x1) (h6 : W (Proc.devRef .tc main_v6) = val_main_v6 (F := Ideal) x1)
    (h29 : W (Proc.devRef .tc main_v29) = val_main_v29 (F := Ideal) x1) (h31 : W (Proc.devRef .tc main_v31) = val_main_v31 (F := Ideal) x0 x2)
    (ha3 : W (Proc.devRef .tc main_arg3) = x3) :
    after (ValueP.opsE (F := Ideal)) W (Proc.devRef .tc main_v48) = val_main_v48 (F := Ideal) x0 x1 x2 x3 := by
  after_results_simp
  rw [h3, h6, h29, h31, ha3]
  simp only [ofBuf_toBuf]
  unfold val_main_v48 val_main_call1_v0 val_main_call1_cst
  erw [toBuf_self main_v48, ofBuf_self main_v47]
  rfl

/-- The combined layer: the product of `[x_agg | x]` with the transposed weight, plus the bias, clamped. -/
theorem chunkF_v55 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S128, .f32⟩ : BufTy).Contents (Elt Ideal))
    (h48 : W (Proc.devRef .tc main_v48) = val_main_v48 (F := Ideal) x0 x1 x2 x3)
    (ha0 : W (Proc.devRef .tc main_arg0) = x0) (ha4 : W (Proc.devRef .tc main_arg4) = x4) (ha5 : W (Proc.devRef .tc main_arg5) = x5) :
    after (ValueP.opsF (F := Ideal)) W (Proc.devRef .tc main_v55) = val_main_v55 (F := Ideal) x0 x1 x2 x3 x4 x5 := by
  after_results_simp
  rw [h48, ha0, ha4, ha5]
  simp only [ofBuf_toBuf]
  unfold val_main_v55 val_main_call2_v0 val_main_call2_cst
  erw [toBuf_self main_v55, ofBuf_self main_v54]
  rfl

/-- `h2`: the combined layer times the transposed second weight. -/
theorem chunkG_v57 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S128, .f32⟩ : BufTy).Contents (Elt Ideal)) (x6 : (⟨S128x128, .f32⟩ : BufTy).Contents (Elt Ideal))
    (h55 : W (Proc.devRef .tc main_v55) = val_main_v55 (F := Ideal) x0 x1 x2 x3 x4 x5) (ha6 : W (Proc.devRef .tc main_arg6) = x6) :
    after (ValueP.opsG (F := Ideal)) W (Proc.devRef .tc main_v57) = val_main_v57 (F := Ideal) x0 x1 x2 x3 x4 x5 x6 := by
  after_results_simp
  rw [h55, ha6]
  rfl

/-- The second aggregation: `h2` gathered along the edges, scaled, scattered to the nodes, plus the bias. -/
theorem chunkH_v73 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (h3 : W (Proc.devRef .tc main_v3) = val_main_v3 (F := Ideal) x1) (h6 : W (Proc.devRef .tc main_v6) = val_main_v6 (F := Ideal) x1)
    (h29 : W (Proc.devRef .tc main_v29) = val_main_v29 (F := Ideal) x1) (h57 : W (Proc.devRef .tc main_v57) = val_main_v57 (F := Ideal) x0 x1 x2 x3 x4 x5 x6)
    (ha7 : W (Proc.devRef .tc main_arg7) = x7) :
    after (ValueP.opsH (F := Ideal)) W (Proc.devRef .tc main_v73) = val_main_v73 (F := Ideal) x0 x1 x2 x3 x4 x5 x6 x7 := by
  after_results_simp
  rw [h3, h6, h29, h57, ha7]
  rfl

/-- The output layer: the product of `[x_agg2 | x_comb]` with the transposed weight, plus the bias. -/
theorem chunkI_v79 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S64x256, .f32⟩ : BufTy).Contents (Elt Ideal)) (x9 : (⟨S64, .f32⟩ : BufTy).Contents (Elt Ideal))
    (h73 : W (Proc.devRef .tc main_v73) = val_main_v73 (F := Ideal) x0 x1 x2 x3 x4 x5 x6 x7) (h55 : W (Proc.devRef .tc main_v55) = val_main_v55 (F := Ideal) x0 x1 x2 x3 x4 x5)
    (ha8 : W (Proc.devRef .tc main_arg8) = x8) (ha9 : W (Proc.devRef .tc main_arg9) = x9) :
    after (ValueP.opsI (F := Ideal)) W (Proc.devRef .tc main_v79) = val_main_v79 (F := Ideal) x0 x1 x2 x3 x4 x5 x6 x7 x8 x9 := by
  after_results_simp
  rw [h73, h55, ha8, ha9]
  rfl

/-! ## What a stretch does not write

A buffer none of a run of stretches writes keeps its contents through it: the launch arguments through every
stretch, a stage's buffer through the stretches between the one that fills it and the ones that read it. -/

theorem carryB_v3 : after (ValueP.opsB (F := Ideal)) W (Proc.devRef .tc main_v3) = W (Proc.devRef .tc main_v3) := by
  after_results_simp

theorem carryB_v6 : after (ValueP.opsB (F := Ideal)) W (Proc.devRef .tc main_v6) = W (Proc.devRef .tc main_v6) := by
  after_results_simp

theorem carryCD_v3 : after (ValueP.opsD (F := Ideal)) (after (ValueP.opsC (F := Ideal)) W) (Proc.devRef .tc main_v3) = W (Proc.devRef .tc main_v3) := by
  after_results_simp

theorem carryCD_v6 : after (ValueP.opsD (F := Ideal)) (after (ValueP.opsC (F := Ideal)) W) (Proc.devRef .tc main_v6) = W (Proc.devRef .tc main_v6) := by
  after_results_simp

theorem carryD_v29 : after (ValueP.opsD (F := Ideal)) W (Proc.devRef .tc main_v29) = W (Proc.devRef .tc main_v29) := by
  after_results_simp

theorem carryABC_arg0 : atC W (Proc.devRef .tc main_arg0) = W (Proc.devRef .tc main_arg0) := by
  after_results_simp

theorem carryABC_arg2 : atC W (Proc.devRef .tc main_arg2) = W (Proc.devRef .tc main_arg2) := by
  after_results_simp

theorem carryAD_arg3 : atD W (Proc.devRef .tc main_arg3) = W (Proc.devRef .tc main_arg3) := by
  after_results_simp

theorem carryEFG_v3 : after (ValueP.opsG (F := Ideal)) (after (ValueP.opsF (F := Ideal)) (after (ValueP.opsE (F := Ideal)) W)) (Proc.devRef .tc main_v3) = W (Proc.devRef .tc main_v3) := by
  after_results_simp

theorem carryEFG_v6 : after (ValueP.opsG (F := Ideal)) (after (ValueP.opsF (F := Ideal)) (after (ValueP.opsE (F := Ideal)) W)) (Proc.devRef .tc main_v6) = W (Proc.devRef .tc main_v6) := by
  after_results_simp

theorem carryEFG_v29 : after (ValueP.opsG (F := Ideal)) (after (ValueP.opsF (F := Ideal)) (after (ValueP.opsE (F := Ideal)) W)) (Proc.devRef .tc main_v29) = W (Proc.devRef .tc main_v29) := by
  after_results_simp

theorem carryGH_v55 : after (ValueP.opsH (F := Ideal)) (after (ValueP.opsG (F := Ideal)) W) (Proc.devRef .tc main_v55) = W (Proc.devRef .tc main_v55) := by
  after_results_simp

theorem carryAE_arg0 : atE W (Proc.devRef .tc main_arg0) = W (Proc.devRef .tc main_arg0) := by
  after_results_simp

theorem carryAE_arg4 : atE W (Proc.devRef .tc main_arg4) = W (Proc.devRef .tc main_arg4) := by
  after_results_simp

theorem carryAE_arg5 : atE W (Proc.devRef .tc main_arg5) = W (Proc.devRef .tc main_arg5) := by
  after_results_simp

theorem carryAF_arg6 : atF W (Proc.devRef .tc main_arg6) = W (Proc.devRef .tc main_arg6) := by
  after_results_simp

theorem carryAG_arg7 : atG W (Proc.devRef .tc main_arg7) = W (Proc.devRef .tc main_arg7) := by
  after_results_simp

theorem carryAH_arg8 : atH W (Proc.devRef .tc main_arg8) = W (Proc.devRef .tc main_arg8) := by
  after_results_simp

theorem carryAH_arg9 : atH W (Proc.devRef .tc main_arg9) = W (Proc.devRef .tc main_arg9) := by
  after_results_simp

variable (m : (ℓ : Loc nD τ sig) → Buf (Elt Ideal) ℓ)

/-- The result buffer after the nine stretches in a row: each stretch reads the stage functions the earlier ones
    left, and the launch arguments, which no operation writes. -/
theorem result_cut (c : Dev nD) :
    after (ValueP.opsI (F := Ideal)) (atH (launchContents m c)) (Proc.devRef .tc main_v79)
      = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have a3 := chunkA_v3 (launchContents m c) (m ((c.tc : Thread nD τ).loc main_arg1)) rfl
  have a6 := chunkA_v6 (launchContents m c) (m ((c.tc : Thread nD τ).loc main_arg1)) rfl
  have a12 := chunkA_v12 (launchContents m c) (m ((c.tc : Thread nD τ).loc main_arg1)) rfl
  have a13 := chunkA_v13 (launchContents m c) (m ((c.tc : Thread nD τ).loc main_arg1)) rfl
  have ac := chunkA_cst_2 (launchContents m c)
  have b14 := chunkB_v14 (atA (launchContents m c)) (m ((c.tc : Thread nD τ).loc main_arg1)) ac a12 a13
  have b3 := (carryB_v3 (atA (launchContents m c))).trans a3
  have b6 := (carryB_v6 (atA (launchContents m c))).trans a6
  have c29 := chunkC_v29 (atB (launchContents m c)) (m ((c.tc : Thread nD τ).loc main_arg1)) b3 b6 b14
  have d31 := chunkD_v31 (atC (launchContents m c)) (m ((c.tc : Thread nD τ).loc main_arg0)) (m ((c.tc : Thread nD τ).loc main_arg2)) (carryABC_arg0 (launchContents m c)) (carryABC_arg2 (launchContents m c))
  have d3 := (carryCD_v3 (atB (launchContents m c))).trans b3
  have d6 := (carryCD_v6 (atB (launchContents m c))).trans b6
  have d29 := (carryD_v29 (atC (launchContents m c))).trans c29
  have e48 := chunkE_v48 (atD (launchContents m c)) (m ((c.tc : Thread nD τ).loc main_arg0)) (m ((c.tc : Thread nD τ).loc main_arg1)) (m ((c.tc : Thread nD τ).loc main_arg2)) (m ((c.tc : Thread nD τ).loc main_arg3)) d3 d6 d29 d31 (carryAD_arg3 (launchContents m c))
  have f55 := chunkF_v55 (atE (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) e48 (carryAE_arg0 (launchContents m c))
    (carryAE_arg4 (launchContents m c)) (carryAE_arg5 (launchContents m c))
  have g57 := chunkG_v57 (atF (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) f55 (carryAF_arg6 (launchContents m c))
  have g3 := (carryEFG_v3 (atD (launchContents m c))).trans d3
  have g6 := (carryEFG_v6 (atD (launchContents m c))).trans d6
  have g29 := (carryEFG_v29 (atD (launchContents m c))).trans d29
  have h73 := chunkH_v73 (atG (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) g3 g6 g29 g57 (carryAG_arg7 (launchContents m c))
  have h55 := (carryGH_v55 (atF (launchContents m c))).trans f55
  exact chunkI_v79 (atH (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) h73 h55 (carryAH_arg8 (launchContents m c))
    (carryAH_arg9 (launchContents m c))

/-- The result buffer after the 100 operations is the last stage function of the ten launch arguments. -/
theorem result (c : Dev nD) :
    after (Cert.ReferenceIdeal.ValueP.ops (F := Ideal)) (launchContents m c) (Proc.devRef .tc main_v79)
      = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [ValueP.ops_split]
  simp only [after_append]
  exact result_cut m c

end Cert.ReferenceIdeal.RefWalk
end
-- ==== Proof.Spec.lean ====
/-
  The three whole-array functions the four pallas_calls compute, index by index, on the extended reals.

  `rowsDot a w` pairs every row of `a` with every row of `w`: entry `(r, j)` is `∑ k, a (r, k) · w (j, k)`, the
  product of `a` with the transpose of `w`. `twoDot a b wa wb bias` adds two such products and a bias row,
  `(a · waᵀ + b · wbᵀ) + bias`, which is what a product of the concatenation `[a | b]` with the transpose of
  `[wa | wb]` is, the contracted axis split in two. `twoDotRelu` clamps that at zero from below.
  A block of rows of any of them depends only on the same rows of `a` and `b`, which is why a kernel tiled over
  rows computes them block by block.
-/
import Idealize.ShloMosaic.PureOps.Ideal
import Idealize.ShloMosaic.Lib.ValueIdx

noncomputable section

open scoped BigOperators

namespace Cert.Spec

open Idealize.ShloMosaic Idealize.ShloMosaic.ValueIdx

variable {M K N : ℕ}

/-- Entry `(r, j)`: row `r` of `a` against row `j` of `w`. -/
def rowsDot (a : FVec Ideal ⟨2, ![M, K]⟩ .f32) (w : FVec Ideal ⟨2, ![N, K]⟩ .f32) : FVec Ideal ⟨2, ![M, N]⟩ .f32 :=
  fun i => ∑ k : Fin K, a (ix2 (i 0) k) * w (ix2 (i 1) k)

theorem rowsDot_apply (a : FVec Ideal ⟨2, ![M, K]⟩ .f32) (w : FVec Ideal ⟨2, ![N, K]⟩ .f32) (r : Fin M) (j : Fin N) :
    rowsDot a w (ix2 r j) = ∑ k : Fin K, a (ix2 r k) * w (ix2 j k) := rfl

/-- Two such products and a bias row: `(a · waᵀ + b · wbᵀ) + bias`. -/
def twoDot (a b : FVec Ideal ⟨2, ![M, K]⟩ .f32) (wa wb : FVec Ideal ⟨2, ![N, K]⟩ .f32)
    (bias : FVec Ideal ⟨2, ![1, N]⟩ .f32) : FVec Ideal ⟨2, ![M, N]⟩ .f32 :=
  fun i => (rowsDot a wa i + rowsDot b wb i) + bias (ix2 0 (i 1))

theorem twoDot_apply (a b : FVec Ideal ⟨2, ![M, K]⟩ .f32) (wa wb : FVec Ideal ⟨2, ![N, K]⟩ .f32)
    (bias : FVec Ideal ⟨2, ![1, N]⟩ .f32) (r : Fin M) (j : Fin N) :
    twoDot a b wa wb bias (ix2 r j)
      = ((∑ k : Fin K, a (ix2 r k) * wa (ix2 j k)) + ∑ k : Fin K, b (ix2 r k) * wb (ix2 j k)) + bias (ix2 0 j) := rfl

/-- The same, clamped at the float zero from below. -/
def twoDotRelu (a b : FVec Ideal ⟨2, ![M, K]⟩ .f32) (wa wb : FVec Ideal ⟨2, ![N, K]⟩ .f32)
    (bias : FVec Ideal ⟨2, ![1, N]⟩ .f32) : FVec Ideal ⟨2, ![M, N]⟩ .f32 :=
  fun i => max (twoDot a b wa wb bias i) (FloatOps.ofBits (F := Ideal) .f32 0x00000000#32)

theorem twoDotRelu_apply (a b : FVec Ideal ⟨2, ![M, K]⟩ .f32) (wa wb : FVec Ideal ⟨2, ![N, K]⟩ .f32)
    (bias : FVec Ideal ⟨2, ![1, N]⟩ .f32) (r : Fin M) (j : Fin N) :
    twoDotRelu a b wa wb bias (ix2 r j)
      = max (((∑ k : Fin K, a (ix2 r k) * wa (ix2 j k)) + ∑ k : Fin K, b (ix2 r k) * wb (ix2 j k)) + bias (ix2 0 j))
          (FloatOps.ofBits (F := Ideal) .f32 0x00000000#32) := rfl

end Cert.Spec

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.RefStages.lean ====
/-
  The reference's four matrix products, each as one of the row-by-row functions of `Spec`.

  `x · Wᵀ` on the host is a product with the transposed weight, so entry `(r, j)` pairs row `r` of `x` with row
  `j` of `W`. A product of the concatenation `[a | b]` with the transpose of a weight `W` of `2K` columns
  contracts over `2K` positions; the first `K` of them read `a` and the left half of `W`, the last `K` read `b` and
  the right half, and a finite sum over `2K` positions is the sum of its two halves (addition on the extended reals
  is commutative and associative, so no finiteness is needed). The bias row broadcast down the rows adds
  `bias j` at column `j`, and the clamp at zero acts entry by entry. The bias seen as one row, by a reshape or by a
  broadcast, is the same row: both read `bias j` at `(0, j)`.
-/
import proofs.«124133_j5342939316780_1_alg».proof.KernelIdeal
import proofs.«124133_j5342939316780_1_alg».proof.Proof.Gen.KernelIdeal
import proofs.«124133_j5342939316780_1_alg».proof.Proof.RefRead
import proofs.«124133_j5342939316780_1_alg».proof.Proof.Spec
import proofs.«124133_j5342939316780_1_alg».proof.Proof.LibPlainProduct
import Idealize.ShloMosaic.Lib.Pipeline.Value
import Idealize.ShloMosaic.Lib.ValueIdx
import Idealize.ShloMosaic.PureOps.Ideal.Laws

noncomputable section

open scoped BigOperators

namespace Cert.RefStages

open Idealize.ShloMosaic Idealize.ShloMosaic.ValueIdx
open Cert.ReferenceIdeal.ReadP

section Generic

variable {M K N : ℕ}

/-- The transposed weight at `(k, j)` is the weight at `(j, k)`. -/
theorem transpose_apply2 {α : Type} (W : (⟨2, ![N, K]⟩ : Shape).Idx → α)
    (h : (⟨2, ![N, K]⟩ : Shape).Transposes [1, 0] ⟨2, ![K, N]⟩) (k : Fin K) (j : Fin N) :
    transpose ⟨2, ![K, N]⟩ [1, 0] W h (ix2 k j) = W (ix2 j k) :=
  transpose_apply [1, 0] W h (ix2 k j) (ix2 j k) (fun b => match b with
    | ⟨0, _⟩ => rfl
    | ⟨1, _⟩ => rfl)

/-- A plain product with the transposed weight pairs row `r` of `A` with row `j` of `W`. -/
theorem dot_transpose_apply (A : FVec Ideal ⟨2, ![M, K]⟩ .f32) (W : FVec Ideal ⟨2, ![N, K]⟩ .f32)
    (h : (⟨2, ![N, K]⟩ : Shape).Transposes [1, 0] ⟨2, ![K, N]⟩) (r : Fin M) (j : Fin N) :
    Host.dotGeneral (DotDims.plain M K N) none A (transpose ⟨2, ![K, N]⟩ [1, 0] W h) (ix2 r j)
      = ∑ k : Fin K, A (ix2 r k) * W (ix2 j k) := by
  simp only [Host.dotGeneral]
  rw [Cert.LibPlainProduct.dotGeneral_plain_apply]
  exact Finset.sum_congr rfl fun k _ => by rw [transpose_apply2]

/-- So the whole product is `rowsDot`. -/
theorem dot_transpose_eq_rowsDot (A : FVec Ideal ⟨2, ![M, K]⟩ .f32) (W : FVec Ideal ⟨2, ![N, K]⟩ .f32)
    (h : (⟨2, ![N, K]⟩ : Shape).Transposes [1, 0] ⟨2, ![K, N]⟩) :
    Host.dotGeneral (DotDims.plain M K N) none A (transpose ⟨2, ![K, N]⟩ [1, 0] W h) = Cert.Spec.rowsDot A W := by
  funext i
  obtain ⟨r, j, rfl⟩ : ∃ (r : Fin M) (j : Fin N), i = ix2 r j := ⟨i 0, i 1, eq_ix2 i⟩
  rw [Cert.Spec.rowsDot_apply]
  exact dot_transpose_apply A W h r j

/-- A sum over `256` positions is the sum over the first `128` plus the sum over the last `128`. -/
theorem sum_split_256 {β : Type} [AddCommMonoid β] (f : Fin 256 → β) :
    ∑ k : Fin 256, f k
      = (∑ k : Fin 128, f ⟨k.val, Nat.lt_of_lt_of_le k.isLt (by decide)⟩)
        + ∑ k : Fin 128, f ⟨128 + k.val, Nat.add_lt_add_left k.isLt 128⟩ :=
  Fin.sum_univ_add (a := 128) (b := 128) f

/-- The concatenation `[A | B]` along the columns reads `A` at a column below `128`. -/
theorem concat_left_apply {α : Type} (A B : (⟨2, ![M, 128]⟩ : Shape).Idx → α)
    (hc : Shape.Concatenates [(⟨2, ![M, 128]⟩ : Shape), ⟨2, ![M, 128]⟩] ⟨2, ![M, 256]⟩ 1)
    (r : Fin M) (k : Fin 128) (hk : k.val < 256) :
    concatenate ⟨2, ![M, 256]⟩ 1 [⟨⟨2, ![M, 128]⟩, A⟩, ⟨⟨2, ![M, 128]⟩, B⟩] hc (ix2 r ⟨k.val, hk⟩) = A (ix2 r k) :=
  concatenate_pair_apply_left 1 A B hc (ix2 r ⟨k.val, hk⟩) rfl (ix2 r k) (fun b => match b with
    | ⟨0, _⟩ => rfl
    | ⟨1, _⟩ => rfl)

/-- And `B` at a column `128 + k`. -/
theorem concat_right_apply {α : Type} (A B : (⟨2, ![M, 128]⟩ : Shape).Idx → α)
    (hc : Shape.Concatenates [(⟨2, ![M, 128]⟩ : Shape), ⟨2, ![M, 128]⟩] ⟨2, ![M, 256]⟩ 1)
    (r : Fin M) (k : Fin 128) (hk : 128 + k.val < 256) :
    concatenate ⟨2, ![M, 256]⟩ 1 [⟨⟨2, ![M, 128]⟩, A⟩, ⟨⟨2, ![M, 128]⟩, B⟩] hc (ix2 r ⟨128 + k.val, hk⟩) = B (ix2 r k) :=
  concatenate_pair_apply_right 1 A B hc (ix2 r ⟨128 + k.val, hk⟩) rfl rfl (ix2 r k)
    (fun b => match b with
      | ⟨0, _⟩ => fun _ => rfl
      | ⟨1, _⟩ => fun h => absurd rfl h)
    (by show k.val + 128 = 128 + k.val; omega)

/-- The left half of the weight's columns. -/
theorem slice_left_apply {α : Type} (W : (⟨2, ![N, 256]⟩ : Shape).Idx → α)
    (hs : (⟨2, ![N, 256]⟩ : Shape).Slices ![0, 0] ⟨2, ![N, 128]⟩) (j : Fin N) (k : Fin 128) (hk : k.val < 256) :
    extractStridedSlice ⟨2, ![N, 128]⟩ ![0, 0] W hs (ix2 j k) = W (ix2 j ⟨k.val, hk⟩) :=
  extractStridedSlice_apply ![0, 0] W hs (ix2 j k) (ix2 j ⟨k.val, hk⟩) (fun a => match a with
    | ⟨0, _⟩ => by show j.val = 0 + j.val; omega
    | ⟨1, _⟩ => by show k.val = 0 + k.val; omega)

/-- The right half of the weight's columns. -/
theorem slice_right_apply {α : Type} (W : (⟨2, ![N, 256]⟩ : Shape).Idx → α)
    (hs : (⟨2, ![N, 256]⟩ : Shape).Slices ![0, 128] ⟨2, ![N, 128]⟩) (j : Fin N) (k : Fin 128) (hk : 128 + k.val < 256) :
    extractStridedSlice ⟨2, ![N, 128]⟩ ![0, 128] W hs (ix2 j k) = W (ix2 j ⟨128 + k.val, hk⟩) :=
  extractStridedSlice_apply ![0, 128] W hs (ix2 j k) (ix2 j ⟨128 + k.val, hk⟩) (fun a => match a with
    | ⟨0, _⟩ => by show j.val = 0 + j.val; omega
    | ⟨1, _⟩ => by show 128 + k.val = 128 + k.val; rfl)

/-- The product of `[A | B]` with the transposed weight, the contracted axis split at `128`. -/
theorem concat_dot_apply (A B : FVec Ideal ⟨2, ![M, 128]⟩ .f32) (W : FVec Ideal ⟨2, ![N, 256]⟩ .f32)
    (hc : Shape.Concatenates [(⟨2, ![M, 128]⟩ : Shape), ⟨2, ![M, 128]⟩] ⟨2, ![M, 256]⟩ 1)
    (ht : (⟨2, ![N, 256]⟩ : Shape).Transposes [1, 0] ⟨2, ![256, N]⟩)
    (hs0 : (⟨2, ![N, 256]⟩ : Shape).Slices ![0, 0] ⟨2, ![N, 128]⟩)
    (hs1 : (⟨2, ![N, 256]⟩ : Shape).Slices ![0, 128] ⟨2, ![N, 128]⟩) (r : Fin M) (j : Fin N) :
    Host.dotGeneral (DotDims.plain M 256 N) none
        (concatenate ⟨2, ![M, 256]⟩ 1 [⟨⟨2, ![M, 128]⟩, A⟩, ⟨⟨2, ![M, 128]⟩, B⟩] hc)
        (transpose ⟨2, ![256, N]⟩ [1, 0] W ht) (ix2 r j)
      = (∑ k : Fin 128, A (ix2 r k) * extractStridedSlice ⟨2, ![N, 128]⟩ ![0, 0] W hs0 (ix2 j k))
        + ∑ k : Fin 128, B (ix2 r k) * extractStridedSlice ⟨2, ![N, 128]⟩ ![0, 128] W hs1 (ix2 j k) := by
  rw [dot_transpose_apply, sum_split_256]
  refine congrArg₂ (· + ·) (Finset.sum_congr rfl fun k _ => ?_) (Finset.sum_congr rfl fun k _ => ?_)
  · rw [concat_left_apply, slice_left_apply]
  · rw [concat_right_apply, slice_right_apply]

/-- A coordinate of an axis of extent one is zero. -/
theorem val_eq_ite (j : Fin N) : j.val = if N = 1 then 0 else j.val := by
  split_ifs with h
  · have := j.isLt; omega
  · rfl

/-- The bias row broadcast down the rows reads `b j` at column `j`. -/
theorem bias_bcast_apply {α : Type} (b : (⟨1, ![N]⟩ : Shape).Idx → α)
    (hb1 : (⟨1, ![N]⟩ : Shape).BroadcastsInDim ⟨2, ![1, N]⟩ ![1])
    (hb2 : (⟨2, ![1, N]⟩ : Shape).BroadcastsInDim ⟨2, ![M, N]⟩ ![0, 1]) (r : Fin M) (j : Fin N) :
    broadcastInDim ⟨2, ![M, N]⟩ ![0, 1] hb2 (broadcastInDim ⟨2, ![1, N]⟩ ![1] hb1 b) (ix2 r j) = b (ix1 j) := by
  refine (broadcastInDim_apply _ hb2 _ (ix2 r j) (ix2 0 j) (fun a => match a with
    | ⟨0, _⟩ => by show 0 = if (1 : Nat) = 1 then 0 else r.val; rw [if_pos rfl]
    | ⟨1, _⟩ => val_eq_ite j)).trans ?_
  exact broadcastInDim_apply _ hb1 b (ix2 0 j) (ix1 j) (fun a => match a with
    | ⟨0, _⟩ => val_eq_ite j)

/-- The bias reshaped to one row reads `b j` at `(0, j)`. -/
theorem bias_cast_apply {α : Type} (b : (⟨1, ![N]⟩ : Shape).Idx → α)
    (hsc : (⟨1, ![N]⟩ : Shape).ShapeCasts ⟨2, ![1, N]⟩) (j : Fin N) :
    shapeCast ⟨2, ![1, N]⟩ b hsc (ix2 0 j) = b (ix1 j) :=
  shapeCast_apply b hsc (ix2 0 j) (ix1 j) (by
    rewrite [Shape.rowMajor_val_two, Shape.rowMajor_val_one]
    show j.val = 0 * N + j.val
    omega)

/-- `[A | B] · Wᵀ + bias` is `twoDot` of the two halves of the weight. -/
theorem concat_dot_bias_eq_twoDot (A B : FVec Ideal ⟨2, ![M, 128]⟩ .f32) (W : FVec Ideal ⟨2, ![N, 256]⟩ .f32)
    (b : FVec Ideal ⟨1, ![N]⟩ .f32)
    (hc : Shape.Concatenates [(⟨2, ![M, 128]⟩ : Shape), ⟨2, ![M, 128]⟩] ⟨2, ![M, 256]⟩ 1)
    (ht : (⟨2, ![N, 256]⟩ : Shape).Transposes [1, 0] ⟨2, ![256, N]⟩)
    (hb1 : (⟨1, ![N]⟩ : Shape).BroadcastsInDim ⟨2, ![1, N]⟩ ![1])
    (hb2 : (⟨2, ![1, N]⟩ : Shape).BroadcastsInDim ⟨2, ![M, N]⟩ ![0, 1])
    (hs0 : (⟨2, ![N, 256]⟩ : Shape).Slices ![0, 0] ⟨2, ![N, 128]⟩)
    (hs1 : (⟨2, ![N, 256]⟩ : Shape).Slices ![0, 128] ⟨2, ![N, 128]⟩)
    (hsc : (⟨1, ![N]⟩ : Shape).ShapeCasts ⟨2, ![1, N]⟩) :
    addf (Host.dotGeneral (DotDims.plain M 256 N) none
          (concatenate ⟨2, ![M, 256]⟩ 1 [⟨⟨2, ![M, 128]⟩, A⟩, ⟨⟨2, ![M, 128]⟩, B⟩] hc)
          (transpose ⟨2, ![256, N]⟩ [1, 0] W ht))
        (broadcastInDim ⟨2, ![M, N]⟩ ![0, 1] hb2 (broadcastInDim ⟨2, ![1, N]⟩ ![1] hb1 b))
      = Cert.Spec.twoDot A B (extractStridedSlice ⟨2, ![N, 128]⟩ ![0, 0] W hs0)
          (extractStridedSlice ⟨2, ![N, 128]⟩ ![0, 128] W hs1) (shapeCast ⟨2, ![1, N]⟩ b hsc) := by
  funext i
  obtain ⟨r, j, rfl⟩ : ∃ (r : Fin M) (j : Fin N), i = ix2 r j := ⟨i 0, i 1, eq_ix2 i⟩
  rw [Cert.Spec.twoDot_apply, bias_cast_apply, addf_apply, concat_dot_apply A B W hc ht hs0 hs1, bias_bcast_apply]

/-- The same clamped at zero is `twoDotRelu`. -/
theorem concat_dot_bias_relu_eq_twoDotRelu (A B : FVec Ideal ⟨2, ![M, 128]⟩ .f32) (W : FVec Ideal ⟨2, ![N, 256]⟩ .f32)
    (b : FVec Ideal ⟨1, ![N]⟩ .f32)
    (hc : Shape.Concatenates [(⟨2, ![M, 128]⟩ : Shape), ⟨2, ![M, 128]⟩] ⟨2, ![M, 256]⟩ 1)
    (ht : (⟨2, ![N, 256]⟩ : Shape).Transposes [1, 0] ⟨2, ![256, N]⟩)
    (hb1 : (⟨1, ![N]⟩ : Shape).BroadcastsInDim ⟨2, ![1, N]⟩ ![1])
    (hb2 : (⟨2, ![1, N]⟩ : Shape).BroadcastsInDim ⟨2, ![M, N]⟩ ![0, 1])
    (hb0 : (⟨0, ![]⟩ : Shape).BroadcastsInDim ⟨2, ![M, N]⟩ ![])
    (hs0 : (⟨2, ![N, 256]⟩ : Shape).Slices ![0, 0] ⟨2, ![N, 128]⟩)
    (hs1 : (⟨2, ![N, 256]⟩ : Shape).Slices ![0, 128] ⟨2, ![N, 128]⟩)
    (hsc : (⟨1, ![N]⟩ : Shape).ShapeCasts ⟨2, ![1, N]⟩) :
    maximumf (addf (Host.dotGeneral (DotDims.plain M 256 N) none
          (concatenate ⟨2, ![M, 256]⟩ 1 [⟨⟨2, ![M, 128]⟩, A⟩, ⟨⟨2, ![M, 128]⟩, B⟩] hc)
          (transpose ⟨2, ![256, N]⟩ [1, 0] W ht))
        (broadcastInDim ⟨2, ![M, N]⟩ ![0, 1] hb2 (broadcastInDim ⟨2, ![1, N]⟩ ![1] hb1 b)))
        (broadcastInDim ⟨2, ![M, N]⟩ ![] hb0 (constant (F := Ideal) ⟨0, ![]⟩ .f32 0x00000000#32))
      = Cert.Spec.twoDotRelu A B (extractStridedSlice ⟨2, ![N, 128]⟩ ![0, 0] W hs0)
          (extractStridedSlice ⟨2, ![N, 128]⟩ ![0, 128] W hs1) (shapeCast ⟨2, ![1, N]⟩ b hsc) := by
  rw [concat_dot_bias_eq_twoDot A B W b hc ht hb1 hb2 hs0 hs1 hsc]
  funext i
  rw [maximumf_apply]
  refine congrArg (max _) ?_
  exact broadcastInDim_apply _ hb0 _ i ix0 (fun a => a.elim0)

end Generic

/-- `h1 = x · W1ᵀ`. -/
theorem stage_v31 (x0 : (⟨ReferenceIdeal.S50000x128, .f32⟩ : BufTy).Contents (Elt Ideal)) (x2 : (⟨ReferenceIdeal.S128x128, .f32⟩ : BufTy).Contents (Elt Ideal)) :
    val_main_v31 (F := Ideal) x0 x2 = Cert.Spec.rowsDot x0 x2 := by
  unfold val_main_v31 val_main_v30
  exact dot_transpose_eq_rowsDot (M := 50000) (K := 128) (N := 128) x0 x2 _

/-- `x_comb = relu([x_agg | x] · Wcᵀ + bc)`, the contracted axis split at 128. -/
theorem stage_v55 (x0 : (⟨ReferenceIdeal.S50000x128, .f32⟩ : BufTy).Contents (Elt Ideal)) (x1 : (⟨ReferenceIdeal.S2x1600000, .i32⟩ : BufTy).Contents (Elt Ideal)) (x2 : (⟨ReferenceIdeal.S128x128, .f32⟩ : BufTy).Contents (Elt Ideal)) (x3 : (⟨ReferenceIdeal.S128, .f32⟩ : BufTy).Contents (Elt Ideal)) (x4 : (⟨ReferenceIdeal.S128x256, .f32⟩ : BufTy).Contents (Elt Ideal)) (x5 : (⟨ReferenceIdeal.S128, .f32⟩ : BufTy).Contents (Elt Ideal)) :
    val_main_v55 (F := Ideal) x0 x1 x2 x3 x4 x5
      = Cert.Spec.twoDotRelu (val_main_v48 (F := Ideal) x0 x1 x2 x3) x0
          (extractStridedSlice KernelIdeal.S128x128 ![0, 0] x4 KernelIdeal.Facts₀.slices_S128x256_S128x128_0_0)
          (extractStridedSlice KernelIdeal.S128x128 ![0, 128] x4 KernelIdeal.Facts₀.slices_S128x256_S128x128_0_128)
          (shapeCast KernelIdeal.S1x128 x5 KernelIdeal.Facts₀.shapeCasts_S128_S1x128) := by
  unfold val_main_v55 val_main_v54 val_main_v51 val_main_v49 val_main_v50 val_main_v53 val_main_v52 val_main_call2_v0
    val_main_call2_cst
  generalize val_main_v48 (F := Ideal) x0 x1 x2 x3 = A
  exact concat_dot_bias_relu_eq_twoDotRelu (M := 50000) (N := 128) A x0 x4 x5 _ _ _ _ _ _ _ _

/-- `h2 = x_comb · W2ᵀ`. -/
theorem stage_v57 (x0 : (⟨ReferenceIdeal.S50000x128, .f32⟩ : BufTy).Contents (Elt Ideal)) (x1 : (⟨ReferenceIdeal.S2x1600000, .i32⟩ : BufTy).Contents (Elt Ideal)) (x2 : (⟨ReferenceIdeal.S128x128, .f32⟩ : BufTy).Contents (Elt Ideal)) (x3 : (⟨ReferenceIdeal.S128, .f32⟩ : BufTy).Contents (Elt Ideal)) (x4 : (⟨ReferenceIdeal.S128x256, .f32⟩ : BufTy).Contents (Elt Ideal)) (x5 : (⟨ReferenceIdeal.S128, .f32⟩ : BufTy).Contents (Elt Ideal)) (x6 : (⟨ReferenceIdeal.S128x128, .f32⟩ : BufTy).Contents (Elt Ideal)) :
    val_main_v57 (F := Ideal) x0 x1 x2 x3 x4 x5 x6 = Cert.Spec.rowsDot (val_main_v55 (F := Ideal) x0 x1 x2 x3 x4 x5) x6 := by
  unfold val_main_v57 val_main_v56
  generalize val_main_v55 (F := Ideal) x0 x1 x2 x3 x4 x5 = X
  exact dot_transpose_eq_rowsDot (M := 50000) (K := 128) (N := 128) X x6 _

/-- `out = [x_agg2 | x_comb] · Woᵀ + bo`, the contracted axis split at 128. -/
theorem stage_v79 (x0 : (⟨ReferenceIdeal.S50000x128, .f32⟩ : BufTy).Contents (Elt Ideal)) (x1 : (⟨ReferenceIdeal.S2x1600000, .i32⟩ : BufTy).Contents (Elt Ideal)) (x2 : (⟨ReferenceIdeal.S128x128, .f32⟩ : BufTy).Contents (Elt Ideal)) (x3 : (⟨ReferenceIdeal.S128, .f32⟩ : BufTy).Contents (Elt Ideal)) (x4 : (⟨ReferenceIdeal.S128x256, .f32⟩ : BufTy).Contents (Elt Ideal)) (x5 : (⟨ReferenceIdeal.S128, .f32⟩ : BufTy).Contents (Elt Ideal)) (x6 : (⟨ReferenceIdeal.S128x128, .f32⟩ : BufTy).Contents (Elt Ideal)) (x7 : (⟨ReferenceIdeal.S128, .f32⟩ : BufTy).Contents (Elt Ideal)) (x8 : (⟨ReferenceIdeal.S64x256, .f32⟩ : BufTy).Contents (Elt Ideal)) (x9 : (⟨ReferenceIdeal.S64, .f32⟩ : BufTy).Contents (Elt Ideal)) :
    val_main_v79 (F := Ideal) x0 x1 x2 x3 x4 x5 x6 x7 x8 x9
      = Cert.Spec.twoDot (val_main_v73 (F := Ideal) x0 x1 x2 x3 x4 x5 x6 x7) (val_main_v55 (F := Ideal) x0 x1 x2 x3 x4 x5)
          (extractStridedSlice KernelIdeal.S64x128 ![0, 0] x8 KernelIdeal.Facts₀.slices_S64x256_S64x128_0_0)
          (extractStridedSlice KernelIdeal.S64x128 ![0, 128] x8 KernelIdeal.Facts₀.slices_S64x256_S64x128_0_128)
          (shapeCast KernelIdeal.S1x64 x9 KernelIdeal.Facts₀.shapeCasts_S64_S1x64) := by
  unfold val_main_v79 val_main_v76 val_main_v74 val_main_v75 val_main_v78 val_main_v77
  generalize val_main_v73 (F := Ideal) x0 x1 x2 x3 x4 x5 x6 x7 = A
  generalize val_main_v55 (F := Ideal) x0 x1 x2 x3 x4 x5 = B
  exact concat_dot_bias_eq_twoDot (M := 50000) (N := 64) A B x8 x9 _ _ _ _ _ _ _

end Cert.RefStages

end
-- ==== Proof.Region2.lean ====
/-
  The third pallas_call, `h2 = x_comb · W2ᵀ`, as one function of its two argument arrays: the same kernel as
  the first call on other arrays (its block of `x_comb` passes through an identity shape cast first).

  Point `t` of the 25 reads rows `2000 t … 2000 t + 1999` of `x_comb` and the whole weight, and writes the same
  rows of the result: entry `(p, q)` of the block is `∑ k, x_block (p, k) · W (q, k)`, row `p` of the block is row
  `2000 t + p` of the array, and the 25 blocks cover every row. So the array after the region is
  `Spec.rowsDot x_comb W2`. Stated for any contents `V` of the buffers at the region's entry.
-/
import proofs.«124133_j5342939316780_1_alg».proof.Proof.Gen.KernelIdeal.Frame
import proofs.«124133_j5342939316780_1_alg».proof.Proof.Spec
import proofs.«124133_j5342939316780_1_alg».proof.Proof.LibPlainProduct
import Idealize.ShloMosaic.Lib.Pipeline.Value
import Idealize.ShloMosaic.Lib.ValueIdx
import Idealize.ShloMosaic.PureOps.Ideal.Laws

-- membership in a rectangle of 50000 rows: the structural look recurses once per coordinate of the long axis
set_option maxRecDepth 16384

noncomputable section
open scoped BigOperators

namespace Cert.KernelIdeal.Region2
open Cert.KernelIdeal Cert.KernelIdeal.Gen Idealize.ShloMosaic Idealize.ShloMosaic.TcCoe Idealize.ShloMosaic.ValueIdx Idealize.SL.Sem
open Idealize.ShloMosaic.Pipeline (Dat Cfg Window)

theorem dims_plain : dot_S2000x128_S128x128_S2000x128_1_0_0_1_n_n = DotDims.plain 2000 128 128 := rfl

theorem transpose_sq (w : FVec Ideal S128x128 .bf16) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

theorem pay_apply (x : Vec Ideal S2000x128 .f32) (w : Vec Ideal S128x128 .f32) (p : Fin 2000) (q : Fin 128) :
    k2_pay1 (F := Ideal) x w (ix2 p q) = ∑ k : Fin 128, x (ix2 p k) * w (ix2 q k) := by
  unfold k2_pay1
  dsimp only
  rw [shapeCast_self, dims_plain]
  refine (Cert.LibPlainProduct.matmul_zero_plain_apply _ _ none p q).trans ?_
  refine Finset.sum_congr rfl fun k _ => ?_
  rw [transpose_sq]
  rfl

variable (V : (c : Dev nD) → (b : Ref sig .tc) → Buf (Elt Ideal) ((c : Thread nD τ).loc b))

theorem hz : (![0, 0] : Fin 2 → Nat) = fun _ => 0 := funext fun a => by fin_cases a <;> rfl

abbrev xarr (c : Dev nD) : Vec Ideal S50000x128 .f32 := V c main_v51
abbrev warr (c : Dev nD) : Vec Ideal S128x128 .f32 := V c main_arg6

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed_eq (c : Dev nD) (t : Fin cfg2.N) :
    (dat2 V c).flushed 2 t = ((cfg2.win 2).blk t).view.read (Elt Ideal) (Cert.Spec.rowsDot (xarr V c) (warr V c)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  show k2_pay1 (iblk2 V c 0 t) (iblk2 V c 1 t) (ix2 p q)
    = Cert.Spec.rowsDot (xarr V c) (warr V c) (((cfg2.win 2).blk t).view.emb (ix2 p q))
  refine (pay_apply (iblk2 V c 0 t) (iblk2 V c 1 t) p q).trans ?_
  obtain ⟨e00, e01, e10, e11, e20, e21⟩ := idx_facts t
  have hx : ∀ k : Fin 128, iblk2 V c 0 t (ix2 p k)
      = xarr V c (ix2 ((((cfg2.win 2).blk t).view.emb (ix2 p q)) 0) k) := by
    intro k
    show xarr V c (((cfg2.win 0).blk t).view.emb (ix2 p k)) = _
    refine congrArg (xarr V c) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have hw : ∀ k : Fin 128, iblk2 V c 1 t (ix2 q k)
      = warr V c (ix2 ((((cfg2.win 2).blk t).view.emb (ix2 p q)) 1) k) := by
    intro k
    show warr V c (((cfg2.win 1).blk t).view.emb (ix2 q k)) = _
    refine congrArg (warr V c) (funext fun a => Fin.ext ?_)
    match a with
    | ⟨0, _⟩ => show win2_1.index t (0 : Fin 2) * 128 + 1 * q.val = win2_2.index t (1 : Fin 2) * 128 + 1 * q.val; omega
    | ⟨1, _⟩ => show win2_1.index t (1 : Fin 2) * 128 + 1 * k.val = k.val; omega
  exact Finset.sum_congr rfl fun k _ => by rw [hx k, hw k]

/-- An index of the array is in point `t`'s block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v52).slice (win2_2.rect t)).set ↔ _
  rw [View.set_slice_whole, Rect.mem_set_unit]
  exact Iff.rfl

/-- Every row lies in the block of the point `row / 2000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  refine ⟨⟨(i 0).val / 2000, by show (i 0).val / 2000 < 25; omega⟩, flush2_2 _, ?_⟩
  rw [mem_blk]
  obtain ⟨e00, e01, e10, e11, e20, e21⟩ := idx_facts ⟨(i 0).val / 2000, by show (i 0).val / 2000 < 25; omega⟩
  intro a
  match a with
  | ⟨0, _⟩ => show win2_2.index _ (0 : Fin 2) * 2000 ≤ (i 0).val ∧ (i 0).val < win2_2.index _ (0 : Fin 2) * 2000 + 2000; rw [e20]; show (i 0).val / 2000 * 2000 ≤ (i 0).val ∧ (i 0).val < (i 0).val / 2000 * 2000 + 2000; omega
  | ⟨1, _⟩ => show win2_2.index _ (1 : Fin 2) * 128 ≤ (i 1).val ∧ (i 1).val < win2_2.index _ (1 : Fin 2) * 128 + 128; rw [e21]; omega

/-- The whole output array after the region: every row of `x` against every row of `W`. -/
theorem value (c : Dev nD) : (dat2 V c).arrAt 2 cfg2.N = Cert.Spec.rowsDot (xarr V c) (warr V c) :=
  (dat2 V c).arrAt_eq_of_cover 2 (Cert.Spec.rowsDot (xarr V c) (warr V c)) (fun t _ => flushed_eq V c t) (cover)

end Cert.KernelIdeal.Region2
end
-- ==== Proof.Region3.lean ====
/-
  The fourth pallas_call, `out = x_agg2 · Wo_aᵀ + x_comb · Wo_bᵀ + bo`, as one function of its five argument arrays.

  Point `t` of the 25 reads rows `2000 t … 2000 t + 1999` of `x_agg2` and of `x_comb`, the two weight halves
  (64 rows of 128) and the bias row whole, and writes the same rows of the 64-column result: entry `(p, q)` of the
  block is `(∑ k, a_block (p, k) · Wa (q, k) + ∑ k, b_block (p, k) · Wb (q, k)) + bias (0, q)`, row `p` of a block is
  row `2000 t + p` of its array, and the 25 blocks cover every row. So the array after the region is
  `Spec.twoDot x_agg2 x_comb Wo_a Wo_b bo`. Stated for any contents `V` of the buffers at the region's entry.
-/
import proofs.«124133_j5342939316780_1_alg».proof.Proof.Gen.KernelIdeal.Frame
import proofs.«124133_j5342939316780_1_alg».proof.Proof.Spec
import proofs.«124133_j5342939316780_1_alg».proof.Proof.LibPlainProduct
import Idealize.ShloMosaic.Lib.Pipeline.Value
import Idealize.ShloMosaic.Lib.ValueIdx
import Idealize.ShloMosaic.PureOps.Ideal.Laws

-- membership in a rectangle of 50000 rows: the structural look recurses once per coordinate of the long axis
set_option maxRecDepth 16384

noncomputable section
open scoped BigOperators

namespace Cert.KernelIdeal.Region3
open Cert.KernelIdeal Cert.KernelIdeal.Gen Idealize.ShloMosaic Idealize.ShloMosaic.TcCoe Idealize.ShloMosaic.ValueIdx Idealize.SL.Sem
open Idealize.ShloMosaic.Pipeline (Dat Cfg Window)

/-- Both products carry the plain dimension record of a `2000 × 128` by `128 × 64` product. -/
theorem dims_plain : dot_S2000x128_S128x64_S2000x64_1_0_0_1_n_n = DotDims.plain 2000 128 64 := rfl

/-- A `64 × 128` weight transposed to `128 × 64`: its entry `(k, q)` is the weight's entry `(q, k)`. -/
theorem transpose_wt (w : FVec Ideal S64x128 .bf16) (k : Fin 128) (q : Fin 64) :
    transpose S128x64 [1, 0] w transposes_S64x128_p1_0_S128x64 (ix2 k q) = w (ix2 q k) :=
  transpose_apply [1, 0] w transposes_S64x128_p1_0_S128x64 (ix2 k q) (ix2 q k) (fun b => match b with
    | ⟨0, _⟩ => rfl
    | ⟨1, _⟩ => rfl)

/-- A row block times a transposed weight, accumulated into zero, at entry `(p, q)`: the sum over the 128 shared
    columns of row `p` of the block against row `q` of the weight. -/
theorem mm_apply (x : FVec Ideal S2000x128 .bf16) (w : FVec Ideal S64x128 .bf16) (p : Fin 2000) (q : Fin 64) :
    matmul dot_S2000x128_S128x64_S2000x64_1_0_0_1_n_n none x
        (transpose S128x64 [1, 0] w transposes_S64x128_p1_0_S128x64) (constant S2000x64 .f32 0x00000000#32) (ix2 p q)
      = ∑ k : Fin 128, x (ix2 p k) * w (ix2 q k) := by
  rw [dims_plain]
  refine (Cert.LibPlainProduct.matmul_zero_plain_apply _ _ none p q).trans ?_
  exact Finset.sum_congr rfl fun k _ => by rw [transpose_wt]

/-- The 64-entry bias row repeated down the 2000 rows of a block: at `(p, q)` it is the bias at `(0, q)`. -/
theorem bias_apply (v : FVec Ideal S1x64 .f32) (p : Fin 2000) (q : Fin 64) :
    broadcastTo S2000x64 v broadcasts_S1x64_S2000x64 (ix2 p q) = v (ix2 0 q) :=
  broadcastTo_apply v broadcasts_S1x64_S2000x64 (ix2 p q) (ix2 0 q) (fun a => match a with
    | ⟨0, _⟩ => rfl
    | ⟨1, _⟩ => rfl)

/-- Entry `(p, q)` of the stored block: the sum of the two products plus the bias. Every shape cast is between equal
    shapes, and a change of float format does nothing to an extended real. -/
theorem pay_apply (a b : Vec Ideal S2000x128 .f32) (wa wb : Vec Ideal S64x128 .f32) (bias : Vec Ideal S1x64 .f32)
    (p : Fin 2000) (q : Fin 64) :
    k3_pay1 (F := Ideal) a b wa wb bias (ix2 p q)
      = ((∑ k : Fin 128, a (ix2 p k) * wa (ix2 q k)) + ∑ k : Fin 128, b (ix2 p k) * wb (ix2 q k)) + bias (ix2 0 q) := by
  unfold k3_pay1
  dsimp only
  simp only [shapeCast_self]
  rw [addf_apply, addf_apply, mm_apply, mm_apply, bias_apply]
  rfl

variable (V : (c : Dev nD) → (b : Ref sig .tc) → Buf (Elt Ideal) ((c : Thread nD τ).loc b))

abbrev aarr (c : Dev nD) : Vec Ideal S50000x128 .f32 := V c main_v68
abbrev barr (c : Dev nD) : Vec Ideal S50000x128 .f32 := V c main_v51
abbrev waarr (c : Dev nD) : Vec Ideal S64x128 .f32 := V c main_v69
abbrev wbarr (c : Dev nD) : Vec Ideal S64x128 .f32 := V c main_v70
abbrev biasarr (c : Dev nD) : Vec Ideal S1x64 .f32 := V c main_v71

theorem hz : (![0, 0] : Fin 2 → Nat) = fun _ => 0 := funext fun a => by fin_cases a <;> rfl

/-- The index maps at each of the 25 points: both row blocks and the output block sit at block row `t`; the two
    weights and the bias are always block `(0, 0)`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The block point `t` writes back is block `t` of `Spec.twoDot` of the five arrays. -/
theorem flushed_eq (c : Dev nD) (t : Fin cfg3.N) :
    (dat3 V c).flushed 5 t = ((cfg3.win 5).blk t).view.read (Elt Ideal)
      (Cert.Spec.twoDot (aarr V c) (barr V c) (waarr V c) (wbarr V c) (biasarr V c)) := by
  show (cfg3.win 5).cut (grid3.coords t) ((dat3 V c).after 5 t) = _
  rw [after3_5]
  unfold out3_5
  rw [View.canon_unit_zero hz]
  simp only [View.ld_unit_zero (S := S2000x128) hz, View.ld_unit_zero (S := S64x128) hz,
    View.ld_unit_zero (S := S1x64) hz]
  funext j
  obtain ⟨p, q, rfl⟩ : ∃ (p : Fin 2000) (q : Fin 64), j = ix2 p q := ⟨j 0, j 1, eq_ix2 j⟩
  show k3_pay1 (iblk3 V c 0 t) (iblk3 V c 1 t) (iblk3 V c 2 t) (iblk3 V c 3 t) (iblk3 V c 4 t) (ix2 p q)
    = Cert.Spec.twoDot (aarr V c) (barr V c) (waarr V c) (wbarr V c) (biasarr V c)
        (((cfg3.win 5).blk t).view.emb (ix2 p q))
  refine (pay_apply (iblk3 V c 0 t) (iblk3 V c 1 t) (iblk3 V c 2 t) (iblk3 V c 3 t) (iblk3 V c 4 t) p q).trans ?_
  obtain ⟨a0, a1, b0, b1, wa0, wa1, wb0, wb1, s0, s1, o0, o1⟩ := idx_facts t
  -- the output entry sits in row 2000 t + p; so does row p of each row block
  have rowA : ∀ k : Fin 128, iblk3 V c 0 t (ix2 p k)
      = aarr V c (ix2 ((((cfg3.win 5).blk t).view.emb (ix2 p q)) 0) k) := by
    intro k
    show aarr V c (((cfg3.win 0).blk t).view.emb (ix2 p k)) = _
    refine congrArg (aarr V c) (funext fun ax => Fin.ext ?_)
    match ax with
    | ⟨0, _⟩ => show win3_0.index t (0 : Fin 2) * 2000 + 1 * p.val = win3_5.index t (0 : Fin 2) * 2000 + 1 * p.val; omega
    | ⟨1, _⟩ => show win3_0.index t (1 : Fin 2) * 128 + 1 * k.val = k.val; omega
  have rowB : ∀ k : Fin 128, iblk3 V c 1 t (ix2 p k)
      = barr V c (ix2 ((((cfg3.win 5).blk t).view.emb (ix2 p q)) 0) k) := by
    intro k
    show barr V c (((cfg3.win 1).blk t).view.emb (ix2 p k)) = _
    refine congrArg (barr V c) (funext fun ax => Fin.ext ?_)
    match ax with
    | ⟨0, _⟩ => show win3_1.index t (0 : Fin 2) * 2000 + 1 * p.val = win3_5.index t (0 : Fin 2) * 2000 + 1 * p.val; omega
    | ⟨1, _⟩ => show win3_1.index t (1 : Fin 2) * 128 + 1 * k.val = k.val; omega
  -- the output entry sits in column q (the output has one block of 64 columns); row q of each weight is read
  have wtA : ∀ k : Fin 128, iblk3 V c 2 t (ix2 q k)
      = waarr V c (ix2 ((((cfg3.win 5).blk t).view.emb (ix2 p q)) 1) k) := by
    intro k
    show waarr V c (((cfg3.win 2).blk t).view.emb (ix2 q k)) = _
    refine congrArg (waarr V c) (funext fun ax => Fin.ext ?_)
    match ax with
    | ⟨0, _⟩ => show win3_2.index t (0 : Fin 2) * 64 + 1 * q.val = win3_5.index t (1 : Fin 2) * 64 + 1 * q.val; omega
    | ⟨1, _⟩ => show win3_2.index t (1 : Fin 2) * 128 + 1 * k.val = k.val; omega
  have wtB : ∀ k : Fin 128, iblk3 V c 3 t (ix2 q k)
      = wbarr V c (ix2 ((((cfg3.win 5).blk t).view.emb (ix2 p q)) 1) k) := by
    intro k
    show wbarr V c (((cfg3.win 3).blk t).view.emb (ix2 q k)) = _
    refine congrArg (wbarr V c) (funext fun ax => Fin.ext ?_)
    match ax with
    | ⟨0, _⟩ => show win3_3.index t (0 : Fin 2) * 64 + 1 * q.val = win3_5.index t (1 : Fin 2) * 64 + 1 * q.val; omega
    | ⟨1, _⟩ => show win3_3.index t (1 : Fin 2) * 128 + 1 * k.val = k.val; omega
  -- the bias has one row; its entry in column q is read
  have biasQ : iblk3 V c 4 t (ix2 (0 : Fin 1) q)
      = biasarr V c (ix2 (0 : Fin 1) ((((cfg3.win 5).blk t).view.emb (ix2 p q)) 1)) := by
    show biasarr V c (((cfg3.win 4).blk t).view.emb (ix2 (0 : Fin 1) q)) = _
    refine congrArg (biasarr V c) (funext fun ax => Fin.ext ?_)
    match ax with
    | ⟨0, _⟩ => show win3_4.index t (0 : Fin 2) * 1 + 1 * 0 = 0; omega
    | ⟨1, _⟩ => show win3_4.index t (1 : Fin 2) * 64 + 1 * q.val = win3_5.index t (1 : Fin 2) * 64 + 1 * q.val; omega
  exact congrArg₂ (· + ·)
    (congrArg₂ (· + ·) (Finset.sum_congr rfl fun k _ => by rw [rowA k, wtA k])
      (Finset.sum_congr rfl fun k _ => by rw [rowB k, wtB k]))
    biasQ

/-- Membership of an array index in point `t`'s output block, axis by axis: rows in a range of 2000, columns in
    the one range of 64. -/
theorem mem_blk (t : Fin cfg3.N) (i : S50000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole main_v72).slice (win3_5.rect t)).set ↔ _
  rw [View.set_slice_whole, Rect.mem_set_unit]
  exact Iff.rfl

/-- Row `r` of the output lies in the block of the point `r / 2000`. -/
theorem cover (i : S50000x64.Idx) : ∃ t : Fin cfg3.N, (cfg3.win 5).flush t = true ∧ i ∈ ((cfg3.win 5).blk t).view.set := by
  have hrow : (i 0).val < 50000 := (i 0).isLt
  have hcol : (i 1).val < 64 := (i 1).isLt
  refine ⟨⟨(i 0).val / 2000, by show (i 0).val / 2000 < 25; omega⟩, flush3_5 _, ?_⟩
  rw [mem_blk]
  obtain ⟨a0, a1, b0, b1, wa0, wa1, wb0, wb1, s0, s1, o0, o1⟩ :=
    idx_facts ⟨(i 0).val / 2000, by show (i 0).val / 2000 < 25; omega⟩
  intro a
  match a with
  | ⟨0, _⟩ => show win3_5.index _ (0 : Fin 2) * 2000 ≤ (i 0).val ∧ (i 0).val < win3_5.index _ (0 : Fin 2) * 2000 + 2000; rw [o0]; show (i 0).val / 2000 * 2000 ≤ (i 0).val ∧ (i 0).val < (i 0).val / 2000 * 2000 + 2000; omega
  | ⟨1, _⟩ => show win3_5.index _ (1 : Fin 2) * 64 ≤ (i 1).val ∧ (i 1).val < win3_5.index _ (1 : Fin 2) * 64 + 64; rw [o1]; omega

/-- The whole output array after the region. -/
theorem value (c : Dev nD) :
    (dat3 V c).arrAt 5 cfg3.N = Cert.Spec.twoDot (aarr V c) (barr V c) (waarr V c) (wbarr V c) (biasarr V c) :=
  (dat3 V c).arrAt_eq_of_cover 5 (Cert.Spec.twoDot (aarr V c) (barr V c) (waarr V c) (wbarr V c) (biasarr V c))
    (fun t _ => flushed_eq V c t) cover

end Cert.KernelIdeal.Region3
end
-- ==== Proof.Region1.lean ====
/-
  The second pallas_call, `x_comb = relu(x_agg · Wc_aᵀ + x · Wc_bᵀ + bc)`, as one function of its five argument arrays.

  Point `t` of the 25 reads rows `2000 t … 2000 t + 1999` of `x_agg` and of `x`, the two weight halves and the bias
  row whole, and writes the same rows of the result: entry `(p, q)` of the block is
  `max ((∑ k, a_block (p, k) · Wa (q, k) + ∑ k, b_block (p, k) · Wb (q, k)) + bias (0, q)) 0`, row `p` of a block is row
  `2000 t + p` of its array, and the 25 blocks cover every row. So the array after the region is
  `Spec.twoDotRelu x_agg x Wc_a Wc_b bc`. Stated for any contents `V` of the buffers at the region's entry.
-/
import proofs.«124133_j5342939316780_1_alg».proof.Proof.Gen.KernelIdeal.Frame
import proofs.«124133_j5342939316780_1_alg».proof.Proof.Spec
import proofs.«124133_j5342939316780_1_alg».proof.Proof.LibPlainProduct
import Idealize.ShloMosaic.Lib.Pipeline.Value
import Idealize.ShloMosaic.Lib.ValueIdx
import Idealize.ShloMosaic.PureOps.Ideal.Laws

-- membership in a rectangle of 50000 rows: the structural look recurses once per coordinate of the long axis
set_option maxRecDepth 16384

noncomputable section
open scoped BigOperators

namespace Cert.KernelIdeal.Region1
open Cert.KernelIdeal Cert.KernelIdeal.Gen Idealize.ShloMosaic Idealize.ShloMosaic.TcCoe Idealize.ShloMosaic.ValueIdx Idealize.SL.Sem
open Idealize.ShloMosaic.Pipeline (Dat Cfg Window)

/-- The printed dimension record of both products is the plain `2000 × 128` by `128 × 128` one. -/
theorem dims_plain : dot_S2000x128_S128x128_S2000x128_1_0_0_1_n_n = DotDims.plain 2000 128 128 := rfl

/-- The transposed square weight read at `(k, q)` is the weight at `(q, k)`. -/
theorem transpose_sq (w : FVec Ideal S128x128 .bf16) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- One product of a row block with a transposed weight, accumulated into zero, at entry `(p, q)`:
    row `p` of the block against row `q` of the weight. -/
theorem mm_apply (x : FVec Ideal S2000x128 .bf16) (w : FVec Ideal S128x128 .bf16) (p : Fin 2000) (q : Fin 128) :
    matmul dot_S2000x128_S128x128_S2000x128_1_0_0_1_n_n none x
        (transpose S128x128 [1, 0] w transposes_S128x128_p1_0_S128x128) (constant S2000x128 .f32 0x00000000#32) (ix2 p q)
      = ∑ k : Fin 128, x (ix2 p k) * w (ix2 q k) := by
  rw [dims_plain]
  refine (Cert.LibPlainProduct.matmul_zero_plain_apply _ _ none p q).trans ?_
  exact Finset.sum_congr rfl fun k _ => by rw [transpose_sq]

/-- The bias row stretched over the 2000 rows of a block, read at `(p, q)`, is the bias at `(0, q)`. -/
theorem bias_apply (v : FVec Ideal S1x128 .f32) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => match a with
    | ⟨0, _⟩ => rfl
    | ⟨1, _⟩ => rfl)

/-- Entry `(p, q)` of the block the kernel stores: the two products, the bias, clamped at zero from below.
    The shape casts are between equal shapes and the format changes are the identity on the extended reals. -/
theorem pay_apply (a b : Vec Ideal S2000x128 .f32) (wa wb : Vec Ideal S128x128 .f32) (bias : Vec Ideal S1x128 .f32)
    (p : Fin 2000) (q : Fin 128) :
    k1_pay1 (F := Ideal) a b wa wb bias (ix2 p q)
      = max (((∑ k : Fin 128, a (ix2 p k) * wa (ix2 q k)) + ∑ k : Fin 128, b (ix2 p k) * wb (ix2 q k)) + bias (ix2 0 q))
          (FloatOps.ofBits (F := Ideal) .f32 0x00000000#32) := by
  unfold k1_pay1
  dsimp only
  simp only [shapeCast_self]
  rw [maximumf_apply, addf_apply, addf_apply, mm_apply, mm_apply, bias_apply]
  rfl

variable (V : (c : Dev nD) → (b : Ref sig .tc) → Buf (Elt Ideal) ((c : Thread nD τ).loc b))

abbrev aarr (c : Dev nD) : Vec Ideal S50000x128 .f32 := V c main_v47
abbrev barr (c : Dev nD) : Vec Ideal S50000x128 .f32 := V c main_arg0
abbrev waarr (c : Dev nD) : Vec Ideal S128x128 .f32 := V c main_v48
abbrev wbarr (c : Dev nD) : Vec Ideal S128x128 .f32 := V c main_v49
abbrev biasarr (c : Dev nD) : Vec Ideal S1x128 .f32 := V c main_v50

theorem hz : (![0, 0] : Fin 2 → Nat) = fun _ => 0 := funext fun a => by fin_cases a <;> rfl

/-- The printed index maps at the 25 points: the row blocks and the output move with the point along axis 0,
    the weights and the bias stay at block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the whole-array function. -/
theorem flushed_eq (c : Dev nD) (t : Fin cfg1.N) :
    (dat1 V c).flushed 5 t = ((cfg1.win 5).blk t).view.read (Elt Ideal)
      (Cert.Spec.twoDotRelu (aarr V c) (barr V c) (waarr V c) (wbarr V c) (biasarr V c)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz,
    View.ld_unit_zero (S := S1x128) hz]
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = Cert.Spec.twoDotRelu (aarr V c) (barr V c) (waarr V c) (wbarr V c) (biasarr V c)
        (((cfg1.win 5).blk t).view.emb (ix2 p q))
  refine (pay_apply (iblk1 V c 0 t) (iblk1 V c 1 t) (iblk1 V c 2 t) (iblk1 V c 3 t) (iblk1 V c 4 t) p q).trans ?_
  obtain ⟨e00, e01, e10, e11, e20, e21, e30, e31, e40, e41, e50, e51⟩ := idx_facts t
  -- row p of either row block is row 2000 t + p of its array, the row of the output entry
  have ha : ∀ k : Fin 128, iblk1 V c 0 t (ix2 p k)
      = aarr V c (ix2 ((((cfg1.win 5).blk t).view.emb (ix2 p q)) 0) k) := by
    intro k
    show aarr V c (((cfg1.win 0).blk t).view.emb (ix2 p k)) = _
    refine congrArg (aarr V c) (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * k.val = k.val; omega
  have hb : ∀ k : Fin 128, iblk1 V c 1 t (ix2 p k)
      = barr V c (ix2 ((((cfg1.win 5).blk t).view.emb (ix2 p q)) 0) k) := by
    intro k
    show barr V c (((cfg1.win 1).blk t).view.emb (ix2 p k)) = _
    refine congrArg (barr V c) (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 128 + 1 * k.val = k.val; omega
  -- the weights are read whole: their row is the output entry's column
  have hwa : ∀ k : Fin 128, iblk1 V c 2 t (ix2 q k)
      = waarr V c (ix2 ((((cfg1.win 5).blk t).view.emb (ix2 p q)) 1) k) := by
    intro k
    show waarr V c (((cfg1.win 2).blk t).view.emb (ix2 q k)) = _
    refine congrArg (waarr V c) (funext fun a => Fin.ext ?_)
    match a with
    | ⟨0, _⟩ => show win1_2.index t (0 : Fin 2) * 128 + 1 * q.val = win1_5.index t (1 : Fin 2) * 128 + 1 * q.val; omega
    | ⟨1, _⟩ => show win1_2.index t (1 : Fin 2) * 128 + 1 * k.val = k.val; omega
  have hwb : ∀ k : Fin 128, iblk1 V c 3 t (ix2 q k)
      = wbarr V c (ix2 ((((cfg1.win 5).blk t).view.emb (ix2 p q)) 1) k) := by
    intro k
    show wbarr V c (((cfg1.win 3).blk t).view.emb (ix2 q k)) = _
    refine congrArg (wbarr V c) (funext fun a => Fin.ext ?_)
    match a with
    | ⟨0, _⟩ => show win1_3.index t (0 : Fin 2) * 128 + 1 * q.val = win1_5.index t (1 : Fin 2) * 128 + 1 * q.val; omega
    | ⟨1, _⟩ => show win1_3.index t (1 : Fin 2) * 128 + 1 * k.val = k.val; omega
  -- and so is the bias row, at the output entry's column
  have hbias : iblk1 V c 4 t (ix2 (0 : Fin 1) q)
      = biasarr V c (ix2 (0 : Fin 1) ((((cfg1.win 5).blk t).view.emb (ix2 p q)) 1)) := by
    show biasarr V c (((cfg1.win 4).blk t).view.emb (ix2 (0 : Fin 1) q)) = _
    refine congrArg (biasarr V c) (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega
  exact congrArg₂ max
    (congrArg₂ (· + ·)
      (congrArg₂ (· + ·) (Finset.sum_congr rfl fun k _ => by rw [ha k, hwa k])
        (Finset.sum_congr rfl fun k _ => by rw [hb k, hwb k]))
      hbias)
    rfl

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v51).slice (win1_5.rect t)).set ↔ _
  rw [View.set_slice_whole, Rect.mem_set_unit]
  exact Iff.rfl

/-- Every row lies in the block of the point `row / 2000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 2000, by show (i 0).val / 2000 < 25; omega⟩, flush1_5 _, ?_⟩
  rw [mem_blk]
  obtain ⟨e00, e01, e10, e11, e20, e21, e30, e31, e40, e41, e50, e51⟩ :=
    idx_facts ⟨(i 0).val / 2000, by show (i 0).val / 2000 < 25; omega⟩
  intro a
  match a with
  | ⟨0, _⟩ => show win1_5.index _ (0 : Fin 2) * 2000 ≤ (i 0).val ∧ (i 0).val < win1_5.index _ (0 : Fin 2) * 2000 + 2000; rw [e50]; show (i 0).val / 2000 * 2000 ≤ (i 0).val ∧ (i 0).val < (i 0).val / 2000 * 2000 + 2000; omega
  | ⟨1, _⟩ => show win1_5.index _ (1 : Fin 2) * 128 ≤ (i 1).val ∧ (i 1).val < win1_5.index _ (1 : Fin 2) * 128 + 128; rw [e51]; omega

/-- The whole output array after the region. -/
theorem value (c : Dev nD) :
    (dat1 V c).arrAt 5 cfg1.N = Cert.Spec.twoDotRelu (aarr V c) (barr V c) (waarr V c) (wbarr V c) (biasarr V c) :=
  (dat1 V c).arrAt_eq_of_cover 5 (Cert.Spec.twoDotRelu (aarr V c) (barr V c) (waarr V c) (wbarr V c) (biasarr V c))
    (fun t _ => flushed_eq V c t) (cover)

end Cert.KernelIdeal.Region1
end
-- ==== Proof.Region0.lean ====
/-
  The first pallas_call, `h1 = x · W1ᵀ`, as one function of its two argument arrays.

  The grid has 25 points; point `t` reads rows `2000 t … 2000 t + 1999` of `x` and the whole weight, and writes
  the same rows of the result. Inside a block, entry `(p, q)` of the matrix product into a zero accumulator is
  `∑ k, x_block (p, k) · W (q, k)` (the weight enters transposed), and row `p` of the block is row `2000 t + p` of
  the array, so the block written at `t` is the block of `Spec.rowsDot x W` at `t`. The 25 blocks cover every row
  (row `r` lies in the block of point `r / 2000`), so the array after the region is `Spec.rowsDot x W` everywhere.
  Stated for any contents `V` of the buffers at the region's entry.
-/
import proofs.«124133_j5342939316780_1_alg».proof.Proof.Gen.KernelIdeal.Frame
import proofs.«124133_j5342939316780_1_alg».proof.Proof.Spec
import proofs.«124133_j5342939316780_1_alg».proof.Proof.LibPlainProduct
import Idealize.ShloMosaic.Lib.Pipeline.Value
import Idealize.ShloMosaic.Lib.ValueIdx
import Idealize.ShloMosaic.PureOps.Ideal.Laws

-- membership in a rectangle of 50000 rows: the structural look recurses once per coordinate of the long axis
set_option maxRecDepth 16384

noncomputable section
open scoped BigOperators

namespace Cert.KernelIdeal.Region0
open Cert.KernelIdeal Cert.KernelIdeal.Gen Idealize.ShloMosaic Idealize.ShloMosaic.TcCoe Idealize.ShloMosaic.ValueIdx Idealize.SL.Sem
open Idealize.ShloMosaic.Pipeline (Dat Cfg Window)

theorem dims_plain : dot_S2000x128_S128x128_S2000x128_1_0_0_1_n_n = DotDims.plain 2000 128 128 := rfl

theorem transpose_sq (w : FVec Ideal S128x128 .bf16) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

theorem pay_apply (x : Vec Ideal S2000x128 .f32) (w : Vec Ideal S128x128 .f32) (p : Fin 2000) (q : Fin 128) :
    k0_pay1 (F := Ideal) x w (ix2 p q) = ∑ k : Fin 128, x (ix2 p k) * w (ix2 q k) := by
  unfold k0_pay1
  dsimp only
  rw [dims_plain]
  refine (Cert.LibPlainProduct.matmul_zero_plain_apply _ _ none p q).trans ?_
  refine Finset.sum_congr rfl fun k _ => ?_
  rw [transpose_sq]
  rfl

variable (V : (c : Dev nD) → (b : Ref sig .tc) → Buf (Elt Ideal) ((c : Thread nD τ).loc b))

theorem hz : (![0, 0] : Fin 2 → Nat) = fun _ => 0 := funext fun a => by fin_cases a <;> rfl

abbrev xarr (c : Dev nD) : Vec Ideal S50000x128 .f32 := V c main_arg0
abbrev warr (c : Dev nD) : Vec Ideal S128x128 .f32 := V c main_arg2

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed_eq (c : Dev nD) (t : Fin cfg0.N) :
    (dat0 V c).flushed 2 t = ((cfg0.win 2).blk t).view.read (Elt Ideal) (Cert.Spec.rowsDot (xarr V c) (warr V c)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = Cert.Spec.rowsDot (xarr V c) (warr V c) (((cfg0.win 2).blk t).view.emb (ix2 p q))
  refine (pay_apply (iblk0 V c 0 t) (iblk0 V c 1 t) p q).trans ?_
  obtain ⟨e00, e01, e10, e11, e20, e21⟩ := idx_facts t
  have hx : ∀ k : Fin 128, iblk0 V c 0 t (ix2 p k)
      = xarr V c (ix2 ((((cfg0.win 2).blk t).view.emb (ix2 p q)) 0) k) := by
    intro k
    show xarr V c (((cfg0.win 0).blk t).view.emb (ix2 p k)) = _
    refine congrArg (xarr V c) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have hw : ∀ k : Fin 128, iblk0 V c 1 t (ix2 q k)
      = warr V c (ix2 ((((cfg0.win 2).blk t).view.emb (ix2 p q)) 1) k) := by
    intro k
    show warr V c (((cfg0.win 1).blk t).view.emb (ix2 q k)) = _
    refine congrArg (warr V c) (funext fun a => Fin.ext ?_)
    match a with
    | ⟨0, _⟩ => show win0_1.index t (0 : Fin 2) * 128 + 1 * q.val = win0_2.index t (1 : Fin 2) * 128 + 1 * q.val; omega
    | ⟨1, _⟩ => show win0_1.index t (1 : Fin 2) * 128 + 1 * k.val = k.val; omega
  exact Finset.sum_congr rfl fun k _ => by rw [hx k, hw k]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every row lies in the block of the point `row / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 2000, by show (i 0).val / 2000 < 25; omega⟩, flush0_2 _, ?_⟩
  rw [mem_blk]
  obtain ⟨e00, e01, e10, e11, e20, e21⟩ := idx_facts ⟨(i 0).val / 2000, by show (i 0).val / 2000 < 25; omega⟩
  intro a
  match a with
  | ⟨0, _⟩ => show win0_2.index _ (0 : Fin 2) * 2000 ≤ (i 0).val ∧ (i 0).val < win0_2.index _ (0 : Fin 2) * 2000 + 2000; rw [e20]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e21]; omega

/-- The whole output array after the region: every row of `x` against every row of `W`. -/
theorem value (c : Dev nD) : (dat0 V c).arrAt 2 cfg0.N = Cert.Spec.rowsDot (xarr V c) (warr V c) :=
  (dat0 V c).arrAt_eq_of_cover 2 (Cert.Spec.rowsDot (xarr V c) (warr V c)) (fun t _ => flushed_eq V c t) (cover)

end Cert.KernelIdeal.Region0
end
-- ==== Proof.WalkA.lean ====
/-
  The buffers the first pallas_call is entered with, as functions of the launch arguments.

  Before the first call @main computes, from the edge list alone, the source and destination node ids with the
  self-loops appended (`main_v3`, `main_v6`) and the symmetric normalisation coefficient of every edge
  (`main_v29`: the in-degree by a scatter-add of ones, its reciprocal square root where positive, gathered at both
  ends of the edge and multiplied). The reference computes the same three arrays by the same operations, so each is
  the reference's own stage function of the edge list. No operation before the first call writes an argument
  array, so each argument's buffer still holds its launch contents.

  The 40 operations run in three stretches: 18, then the 3 of an inlined selection, then 19. What a stretch leaves
  in one buffer is the composition of the operations that feed it, applied to the contents the stretch began with;
  a buffer none of its operations writes passes through it unchanged. So each array is followed back stretch by
  stretch. The coefficient goes through the third stretch to the vector `main_v14` gathered at both ends of an
  edge and to the two id arrays; `main_v14` goes through the inlined selection to the in-degree's sign test, its
  reciprocal square root and a zero; those, and the id arrays, go through the first stretch to the edge list.
-/
import proofs.«124133_j5342939316780_1_alg».proof.Proof.Gen.KernelIdeal.Frame
import proofs.«124133_j5342939316780_1_alg».proof.Proof.RefRead
import Idealize.ShloMosaic.Lib.StableHlo.Run

set_option maxRecDepth 16384

noncomputable section

namespace Cert.KernelIdeal.Walk
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## What each stretch writes, and what it leaves alone -/

/-- The buffers the first stretch writes: one per operation. -/
abbrev written0 : List (Ref sig .tc) :=
  [main_v0, main_v1, main_v2, main_v3, main_v4, main_v5, main_v6, main_cst, main_v7, main_cst_0, main_v8, main_v9,
    main_v10, main_cst_1, main_v11, main_v12, main_v13, main_cst_2]
/-- The buffers the inlined selection writes. -/
abbrev written1 : List (Ref sig .tc) := [main_call0_v0, main_call0_v1, main_v14]
/-- The buffers the third stretch writes. -/
abbrev written2 : List (Ref sig .tc) :=
  [main_c, main_v15, main_v16, main_c_3, main_v17, main_v18, main_v19, main_v20, main_v21, main_c_4, main_v22, main_v23,
    main_c_5, main_v24, main_v25, main_v26, main_v27, main_v28, main_v29]

theorem writes0 : (hostOps0 : List (HloOp τ sig (Elt Ideal))).Forall
    fun op => op.writes ⊆ (written0.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem writes1 : (hostOps0_1 : List (HloOp τ sig (Elt Ideal))).Forall
    fun op => op.writes ⊆ (written1.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem writes2 : (hostOps0_2 : List (HloOp τ sig (Elt Ideal))).Forall
    fun op => op.writes ⊆ (written2.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer none of the 40 operations writes still holds its launch contents. -/
theorem W3_unwritten (c : Dev nD) (r : Ref sig .tc) (h0 : r ∉ written0) (h1 : r ∉ written1) (h2 : r ∉ written2) :
    W3 m ρ c (Proc.devRef .tc r) = W0 m ρ c (Proc.devRef .tc r) :=
  calc W3 m ρ c (Proc.devRef .tc r)
    _ = W2 m ρ c (Proc.devRef .tc r) := after_of_writes_sub hostOps0_2 _ writes2 h2
    _ = W1 m ρ c (Proc.devRef .tc r) := after_of_writes_sub hostOps0_1 _ writes1 h1
    _ = W0 m ρ c (Proc.devRef .tc r) := after_of_writes_sub hostOps0 _ writes0 h0

/-! ## The first stretch, read at the five buffers the later stretches use

The two rows of the edge list, each with the node ids appended; the in-degree's sign test and its reciprocal square
root; the zero that replaces the coefficient of a node of in-degree zero. Each is the reference's stage of the same
name: the same operations on the same launch contents. -/

theorem W1_v3 (c : Dev nD) :
    W1 m ρ c (Proc.devRef .tc main_v3)
      = Cert.ReferenceIdeal.ReadP.val_main_v3 (F := Ideal) (m ((c : Thread nD τ).loc main_arg1)) := by
  show StableHlo.after hostOps0 (W0 m ρ c) (Proc.devRef .tc main_v3) = _
  generalize hW : W0 m ρ c = W
  after_results
  subst hW
  rfl

theorem W1_v6 (c : Dev nD) :
    W1 m ρ c (Proc.devRef .tc main_v6)
      = Cert.ReferenceIdeal.ReadP.val_main_v6 (F := Ideal) (m ((c : Thread nD τ).loc main_arg1)) := by
  show StableHlo.after hostOps0 (W0 m ρ c) (Proc.devRef .tc main_v6) = _
  generalize hW : W0 m ρ c = W
  after_results
  subst hW
  rfl

theorem W1_v12 (c : Dev nD) :
    W1 m ρ c (Proc.devRef .tc main_v12)
      = Cert.ReferenceIdeal.ReadP.val_main_v12 (F := Ideal) (m ((c : Thread nD τ).loc main_arg1)) := by
  show StableHlo.after hostOps0 (W0 m ρ c) (Proc.devRef .tc main_v12) = _
  generalize hW : W0 m ρ c = W
  after_results
  subst hW
  rfl

theorem W1_v13 (c : Dev nD) :
    W1 m ρ c (Proc.devRef .tc main_v13)
      = Cert.ReferenceIdeal.ReadP.val_main_v13 (F := Ideal) (m ((c : Thread nD τ).loc main_arg1)) := by
  show StableHlo.after hostOps0 (W0 m ρ c) (Proc.devRef .tc main_v13) = _
  generalize hW : W0 m ρ c = W
  after_results
  subst hW
  rfl

theorem W1_cst_2 (c : Dev nD) :
    W1 m ρ c (Proc.devRef .tc main_cst_2) = Cert.ReferenceIdeal.ReadP.val_main_cst_2 (F := Ideal) := by
  show StableHlo.after hostOps0 (W0 m ρ c) (Proc.devRef .tc main_cst_2) = _
  generalize hW : W0 m ρ c = W
  after_results
  rfl

/-! ## The inlined selection: the reciprocal square root where the in-degree is positive, zero elsewhere;
    it writes neither id array -/

theorem W2_v14 (c : Dev nD) :
    W2 m ρ c (Proc.devRef .tc main_v14)
      = Cert.ReferenceIdeal.ReadP.val_main_v14 (F := Ideal) (m ((c : Thread nD τ).loc main_arg1)) := by
  show StableHlo.after hostOps0_1 (W1 m ρ c) (Proc.devRef .tc main_v14) = _
  have h12 := W1_v12 m ρ c
  have h13 := W1_v13 m ρ c
  have hzero := W1_cst_2 m ρ c
  generalize W1 m ρ c = W at h12 h13 hzero ⊢
  after_results
  simp only [TRef.ofBuf, TRef.toBuf, cast_eq]
  show select (W (Proc.devRef .tc main_v12)) (W (Proc.devRef .tc main_v13))
      (broadcastInDim S50000 ![] bcast_S_S50000 (id (W (Proc.devRef .tc main_cst_2)))) = _
  rw [h12, h13, hzero]
  rfl

theorem W2_v3 (c : Dev nD) :
    W2 m ρ c (Proc.devRef .tc main_v3)
      = Cert.ReferenceIdeal.ReadP.val_main_v3 (F := Ideal) (m ((c : Thread nD τ).loc main_arg1)) :=
  (after_of_writes_sub hostOps0_1 _ writes1 (by decide)).trans (W1_v3 m ρ c)

theorem W2_v6 (c : Dev nD) :
    W2 m ρ c (Proc.devRef .tc main_v6)
      = Cert.ReferenceIdeal.ReadP.val_main_v6 (F := Ideal) (m ((c : Thread nD τ).loc main_arg1)) :=
  (after_of_writes_sub hostOps0_1 _ writes1 (by decide)).trans (W1_v6 m ρ c)

/-! ## The third stretch: it writes neither id array, and multiplies the two gathers of `main_v14` -/

/-- The source node ids, self-loops appended. -/
theorem W3_v3 (c : Dev nD) :
    W3 m ρ c (Proc.devRef .tc main_v3)
      = Cert.ReferenceIdeal.ReadP.val_main_v3 (F := Ideal) (m ((c : Thread nD τ).loc main_arg1)) :=
  (after_of_writes_sub hostOps0_2 _ writes2 (by decide)).trans (W2_v3 m ρ c)

/-- The destination node ids, self-loops appended. -/
theorem W3_v6 (c : Dev nD) :
    W3 m ρ c (Proc.devRef .tc main_v6)
      = Cert.ReferenceIdeal.ReadP.val_main_v6 (F := Ideal) (m ((c : Thread nD τ).loc main_arg1)) :=
  (after_of_writes_sub hostOps0_2 _ writes2 (by decide)).trans (W2_v6 m ρ c)

/-- The normalisation coefficient of every edge. -/
theorem W3_v29 (c : Dev nD) :
    W3 m ρ c (Proc.devRef .tc main_v29)
      = Cert.ReferenceIdeal.ReadP.val_main_v29 (F := Ideal) (m ((c : Thread nD τ).loc main_arg1)) := by
  show StableHlo.after hostOps0_2 (W2 m ρ c) (Proc.devRef .tc main_v29) = _
  have h3 := W2_v3 m ρ c
  have h6 := W2_v6 m ρ c
  have h14 := W2_v14 m ρ c
  generalize W2 m ρ c = W at h3 h6 h14 ⊢
  after_results_simp
  rw [h3, h6, h14]
  rfl

theorem W3_arg0 (c : Dev nD) :
    W3 m ρ c (Proc.devRef .tc main_arg0) = m ((c : Thread nD τ).loc main_arg0) :=
  (W3_unwritten m ρ c main_arg0 (by decide) (by decide) (by decide)).trans rfl

theorem W3_arg2 (c : Dev nD) :
    W3 m ρ c (Proc.devRef .tc main_arg2) = m ((c : Thread nD τ).loc main_arg2) :=
  (W3_unwritten m ρ c main_arg2 (by decide) (by decide) (by decide)).trans rfl

theorem W3_arg3 (c : Dev nD) :
    W3 m ρ c (Proc.devRef .tc main_arg3) = m ((c : Thread nD τ).loc main_arg3) :=
  (W3_unwritten m ρ c main_arg3 (by decide) (by decide) (by decide)).trans rfl

theorem W3_arg4 (c : Dev nD) :
    W3 m ρ c (Proc.devRef .tc main_arg4) = m ((c : Thread nD τ).loc main_arg4) :=
  (W3_unwritten m ρ c main_arg4 (by decide) (by decide) (by decide)).trans rfl

theorem W3_arg5 (c : Dev nD) :
    W3 m ρ c (Proc.devRef .tc main_arg5) = m ((c : Thread nD τ).loc main_arg5) :=
  (W3_unwritten m ρ c main_arg5 (by decide) (by decide) (by decide)).trans rfl

theorem W3_arg6 (c : Dev nD) :
    W3 m ρ c (Proc.devRef .tc main_arg6) = m ((c : Thread nD τ).loc main_arg6) :=
  (W3_unwritten m ρ c main_arg6 (by decide) (by decide) (by decide)).trans rfl

theorem W3_arg7 (c : Dev nD) :
    W3 m ρ c (Proc.devRef .tc main_arg7) = m ((c : Thread nD τ).loc main_arg7) :=
  (W3_unwritten m ρ c main_arg7 (by decide) (by decide) (by decide)).trans rfl

theorem W3_arg8 (c : Dev nD) :
    W3 m ρ c (Proc.devRef .tc main_arg8) = m ((c : Thread nD τ).loc main_arg8) :=
  (W3_unwritten m ρ c main_arg8 (by decide) (by decide) (by decide)).trans rfl

theorem W3_arg9 (c : Dev nD) :
    W3 m ρ c (Proc.devRef .tc main_arg9) = m ((c : Thread nD τ).loc main_arg9) :=
  (W3_unwritten m ρ c main_arg9 (by decide) (by decide) (by decide)).trans rfl

end Cert.KernelIdeal.Walk
end
-- ==== Proof.WalkB.lean ====
/-
  From the first pallas_call's exit to the second's: `h1`, the aggregation, `x_comb`.

  The first call leaves `h1 = x · W1ᵀ` (the reference's stage `val_main_v31`) and touches nothing else. The host then
  gathers `h1` at the source ids, scales by the edge coefficients, scatter-adds at the destination ids, adds the bias
  and clamps at zero: the same operations, on equal inputs, as the reference's `val_main_v48`. It also cuts the
  weight `Wc` into its two column halves and lays the bias `bc` out as a row. The second call computes
  `twoDotRelu` of these, which is the reference's `val_main_v55`: a product with the concatenation `[x_agg | x]` is
  the sum of the two half products. Buffers no stretch or call writes are carried along unchanged.
-/
import proofs.«124133_j5342939316780_1_alg».proof.Proof.Gen.KernelIdeal.Frame
import proofs.«124133_j5342939316780_1_alg».proof.Proof.RefRead
import proofs.«124133_j5342939316780_1_alg».proof.Proof.RefStages
import proofs.«124133_j5342939316780_1_alg».proof.Proof.Region0
import proofs.«124133_j5342939316780_1_alg».proof.Proof.WalkA
import Idealize.ShloMosaic.Lib.StableHlo.Run

set_option maxRecDepth 16384

noncomputable section

namespace Cert.KernelIdeal.Walk
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a literal stretch writes keeps its contents across the stretch. -/
local macro "not_written" ops:ident : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## Congruence of the three whole-array functions in their arguments -/

theorem rowsDot_congr {M K N : ℕ} {a a' : FVec Ideal ⟨2, ![M, K]⟩ .f32} {w w' : FVec Ideal ⟨2, ![N, K]⟩ .f32}
    (ha : a = a') (hw : w = w') : Cert.Spec.rowsDot a w = Cert.Spec.rowsDot a' w' := by rw [ha, hw]

theorem twoDot_congr {M K N : ℕ} {a a' b b' : FVec Ideal ⟨2, ![M, K]⟩ .f32} {wa wa' wb wb' : FVec Ideal ⟨2, ![N, K]⟩ .f32}
    {bias bias' : FVec Ideal ⟨2, ![1, N]⟩ .f32} (ha : a = a') (hb : b = b') (hwa : wa = wa') (hwb : wb = wb') (hbias : bias = bias') :
    Cert.Spec.twoDot a b wa wb bias = Cert.Spec.twoDot a' b' wa' wb' bias' := by rw [ha, hb, hwa, hwb, hbias]

theorem twoDotRelu_congr {M K N : ℕ} {a a' b b' : FVec Ideal ⟨2, ![M, K]⟩ .f32} {wa wa' wb wb' : FVec Ideal ⟨2, ![N, K]⟩ .f32}
    {bias bias' : FVec Ideal ⟨2, ![1, N]⟩ .f32} (ha : a = a') (hb : b = b') (hwa : wa = wa') (hwb : wb = wb') (hbias : bias = bias') :
    Cert.Spec.twoDotRelu a b wa wb bias = Cert.Spec.twoDotRelu a' b' wa' wb' bias' := by rw [ha, hb, hwa, hwb, hbias]

/-! ## Across the first pallas_call: only its output array changes -/

theorem W4_v3 (c : Dev nD) : W4 m ρ c (Proc.devRef .tc main_v3) = Cert.ReferenceIdeal.ReadP.val_main_v3 (F := Ideal) (m ((c : Thread nD τ).loc main_arg1)) :=
  (W4_of_ne m ρ c main_v3 (by decide)).trans (W3_v3 m ρ c)
theorem W4_v6 (c : Dev nD) : W4 m ρ c (Proc.devRef .tc main_v6) = Cert.ReferenceIdeal.ReadP.val_main_v6 (F := Ideal) (m ((c : Thread nD τ).loc main_arg1)) :=
  (W4_of_ne m ρ c main_v6 (by decide)).trans (W3_v6 m ρ c)
theorem W4_v29 (c : Dev nD) : W4 m ρ c (Proc.devRef .tc main_v29) = Cert.ReferenceIdeal.ReadP.val_main_v29 (F := Ideal) (m ((c : Thread nD τ).loc main_arg1)) :=
  (W4_of_ne m ρ c main_v29 (by decide)).trans (W3_v29 m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)
theorem W4_arg8 (c : Dev nD) : W4 m ρ c (Proc.devRef .tc main_arg8) = (m ((c : Thread nD τ).loc main_arg8)) :=
  (W4_of_ne m ρ c main_arg8 (by decide)).trans (W3_arg8 m ρ c)
theorem W4_arg9 (c : Dev nD) : W4 m ρ c (Proc.devRef .tc main_arg9) = (m ((c : Thread nD τ).loc main_arg9)) :=
  (W4_of_ne m ρ c main_arg9 (by decide)).trans (W3_arg9 m ρ c)
/-- `x` is an input window's array of the first call: the call leaves it as entered. -/
theorem W4_arg0 (c : Dev nD) : W4 m ρ c (Proc.devRef .tc main_arg0) = (m ((c : Thread nD τ).loc main_arg0)) :=
  ((W4_arr m ρ c 0).trans (((dat0 (V3 m ρ) c).arrAt_in 0 rfl _).trans (A_eq0 (V3 m ρ) c 0))).trans (W3_arg0 m ρ c)

/-- The first call's output: `h1 = x · W1ᵀ`. -/
theorem W4_v30 (c : Dev nD) :
    W4 m ρ c (Proc.devRef .tc main_v30) = Cert.ReferenceIdeal.ReadP.val_main_v31 (F := Ideal) (m ((c : Thread nD τ).loc main_arg0)) (m ((c : Thread nD τ).loc main_arg2)) :=
  (W4_arr m ρ c 2).trans ((Cert.KernelIdeal.Region0.value (V3 m ρ) c).trans
    ((rowsDot_congr (M := 50000) (K := 128) (N := 128) (W3_arg0 m ρ c) (W3_arg2 m ρ c)).trans
      (Cert.RefStages.stage_v31 _ _).symm))

/-! ## The three host stretches between the first and the second call, each read over any contents `W`

What a stretch leaves in a buffer is a function of what it finds in the buffers it reads; where those hold the
reference's stages of the launch arguments, so does the result. -/

set_option maxHeartbeats 4000000 in
/-- Gather `h1` at the source ids, scale by the edge coefficients, scatter-add at the destination ids, add `b1`. -/
theorem st1_v46 (W : Valuation τ sig (Elt Ideal)) (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
    (h6 : W (Proc.devRef .tc main_v6) = Cert.ReferenceIdeal.ReadP.val_main_v6 (F := Ideal) x1)
    (h30 : W (Proc.devRef .tc main_v30) = Cert.ReferenceIdeal.ReadP.val_main_v31 (F := Ideal) x0 x2)
    (h3 : W (Proc.devRef .tc main_v3) = Cert.ReferenceIdeal.ReadP.val_main_v3 (F := Ideal) x1)
    (h29 : W (Proc.devRef .tc main_v29) = Cert.ReferenceIdeal.ReadP.val_main_v29 (F := Ideal) x1)
    (hb : W (Proc.devRef .tc main_arg3) = x3) :
    StableHlo.after hostOps1 W (Proc.devRef .tc main_v46) = Cert.ReferenceIdeal.ReadP.val_main_v47 (F := Ideal) x0 x1 x2 x3 := by
  after_results_simp
  rw [h6, h30, h3, h29, hb]
  rfl

set_option maxHeartbeats 4000000 in
/-- The inlined `relu`: the clamp at zero of what it finds in `main_v46`. -/
theorem st11_v47 (W : Valuation τ sig (Elt Ideal)) (X : (⟨S50000x128, .f32⟩ : BufTy).Contents (Elt Ideal)) (h46 : W (Proc.devRef .tc main_v46) = X) :
    StableHlo.after hostOps1_1 W (Proc.devRef .tc main_v47)
      = maximumf (F := Ideal) X (broadcastInDim S50000x128 ![] bcast_S_S50000x128 (constant (F := Ideal) S_ .f32 0x00000000#32)) := by
  after_results
  simp only [TRef.ofBuf, TRef.toBuf, cast_eq]
  rw [h46]

set_option maxHeartbeats 4000000 in
/-- The left half of `Wc`'s columns. -/
theorem st12_v48 (W : Valuation τ sig (Elt Ideal)) (x4 : (⟨S128x256, .f32⟩ : BufTy).Contents (Elt Ideal)) (h : W (Proc.devRef .tc main_arg4) = x4) :
    StableHlo.after hostOps1_2 W (Proc.devRef .tc main_v48) = extractStridedSlice S128x128 ![0, 0] x4 slices_S128x256_S128x128_0_0 := by
  after_results
  rw [h]

set_option maxHeartbeats 4000000 in
/-- The right half of `Wc`'s columns. -/
theorem st12_v49 (W : Valuation τ sig (Elt Ideal)) (x4 : (⟨S128x256, .f32⟩ : BufTy).Contents (Elt Ideal)) (h : W (Proc.devRef .tc main_arg4) = x4) :
    StableHlo.after hostOps1_2 W (Proc.devRef .tc main_v49) = extractStridedSlice S128x128 ![0, 128] x4 slices_S128x256_S128x128_0_128 := by
  after_results
  rw [h]

set_option maxHeartbeats 4000000 in
/-- The bias `bc` laid out as a row. -/
theorem st12_v50 (W : Valuation τ sig (Elt Ideal)) (x5 : (⟨S128, .f32⟩ : BufTy).Contents (Elt Ideal)) (h : W (Proc.devRef .tc main_arg5) = x5) :
    StableHlo.after hostOps1_2 W (Proc.devRef .tc main_v50) = shapeCast S1x128 x5 shapeCasts_S128_S1x128 := by
  after_results
  rw [h]
  rfl

/-! ## The same at the run's boundaries -/

theorem W5_v46 (c : Dev nD) :
    W5 m ρ c (Proc.devRef .tc main_v46) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) :=
  st1_v46 (W4 m ρ c) _ _ _ _ (W4_v6 m ρ c) (W4_v30 m ρ c) (W4_v3 m ρ c) (W4_v29 m ρ c) (W4_arg3 m ρ c)

/-- `x_agg = relu(scatter-add(gather(h1, src) · norm, dst) + b1)`: the reference's operations on equal inputs. -/
theorem W6_v47 (c : Dev nD) :
    W6 m ρ c (Proc.devRef .tc main_v47) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) :=
  (st11_v47 (W5 m ρ c) _ (W5_v46 m ρ c)).trans rfl

theorem W7_v47 (c : Dev nD) :
    W7 m ρ c (Proc.devRef .tc main_v47) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) :=
  calc W7 m ρ c (Proc.devRef .tc main_v47)
    _ = W6 m ρ c (Proc.devRef .tc main_v47) := by not_written hostOps1_2
    _ = _ := W6_v47 m ρ c

theorem W6_arg4 (c : Dev nD) : W6 m ρ c (Proc.devRef .tc main_arg4) = (m ((c : Thread nD τ).loc main_arg4)) :=
  calc W6 m ρ c (Proc.devRef .tc main_arg4)
    _ = W5 m ρ c (Proc.devRef .tc main_arg4) := by not_written hostOps1_1
    _ = W4 m ρ c (Proc.devRef .tc main_arg4) := by not_written hostOps1
    _ = _ := W4_arg4 m ρ c
theorem W6_arg5 (c : Dev nD) : W6 m ρ c (Proc.devRef .tc main_arg5) = (m ((c : Thread nD τ).loc main_arg5)) :=
  calc W6 m ρ c (Proc.devRef .tc main_arg5)
    _ = W5 m ρ c (Proc.devRef .tc main_arg5) := by not_written hostOps1_1
    _ = W4 m ρ c (Proc.devRef .tc main_arg5) := by not_written hostOps1
    _ = _ := W4_arg5 m ρ c

theorem W7_v48 (c : Dev nD) :
    W7 m ρ c (Proc.devRef .tc main_v48) = extractStridedSlice S128x128 ![0, 0] (m ((c : Thread nD τ).loc main_arg4)) slices_S128x256_S128x128_0_0 :=
  st12_v48 (W6 m ρ c) _ (W6_arg4 m ρ c)
theorem W7_v49 (c : Dev nD) :
    W7 m ρ c (Proc.devRef .tc main_v49) = extractStridedSlice S128x128 ![0, 128] (m ((c : Thread nD τ).loc main_arg4)) slices_S128x256_S128x128_0_128 :=
  st12_v49 (W6 m ρ c) _ (W6_arg4 m ρ c)
theorem W7_v50 (c : Dev nD) :
    W7 m ρ c (Proc.devRef .tc main_v50) = shapeCast S1x128 (m ((c : Thread nD τ).loc main_arg5)) shapeCasts_S128_S1x128 :=
  st12_v50 (W6 m ρ c) _ (W6_arg5 m ρ c)

end Cert.KernelIdeal.Walk
end
-- ==== Proof.WalkB2.lean ====
/-
  The buffers carried from the first pallas_call's exit to the second's, and the second call's output `x_comb`.

  The host stretches between the two calls write only their own results, so the node ids, the edge coefficients
  and the later layers' weights and biases still hold what they held at the first call's exit. The second call
  computes `twoDotRelu` of `x_agg`, `x`, the two column halves of `Wc` and the bias row, which is the
  reference's `val_main_v55`: a product with the concatenation `[x_agg | x]` is the sum of the two half products.
  The call touches nothing but its output array.
-/
import proofs.«124133_j5342939316780_1_alg».proof.Proof.Gen.KernelIdeal.Frame
import proofs.«124133_j5342939316780_1_alg».proof.Proof.RefRead
import proofs.«124133_j5342939316780_1_alg».proof.Proof.RefStages
import proofs.«124133_j5342939316780_1_alg».proof.Proof.Region1
import proofs.«124133_j5342939316780_1_alg».proof.Proof.WalkB
import Idealize.ShloMosaic.Lib.StableHlo.Run

set_option maxRecDepth 16384

noncomputable section

namespace Cert.KernelIdeal.Walk
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a literal stretch writes keeps its contents across the stretch. -/
local macro "not_written" ops:ident : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## Carried across the stretches -/

theorem W7_arg0 (c : Dev nD) : W7 m ρ c (Proc.devRef .tc main_arg0) = (m ((c : Thread nD τ).loc main_arg0)) :=
  calc W7 m ρ c (Proc.devRef .tc main_arg0)
    _ = W6 m ρ c (Proc.devRef .tc main_arg0) := by not_written hostOps1_2
    _ = W5 m ρ c (Proc.devRef .tc main_arg0) := by not_written hostOps1_1
    _ = W4 m ρ c (Proc.devRef .tc main_arg0) := by not_written hostOps1
    _ = _ := W4_arg0 m ρ c
theorem W7_v3 (c : Dev nD) : W7 m ρ c (Proc.devRef .tc main_v3) = Cert.ReferenceIdeal.ReadP.val_main_v3 (F := Ideal) (m ((c : Thread nD τ).loc main_arg1)) :=
  calc W7 m ρ c (Proc.devRef .tc main_v3)
    _ = W6 m ρ c (Proc.devRef .tc main_v3) := by not_written hostOps1_2
    _ = W5 m ρ c (Proc.devRef .tc main_v3) := by not_written hostOps1_1
    _ = W4 m ρ c (Proc.devRef .tc main_v3) := by not_written hostOps1
    _ = _ := W4_v3 m ρ c
theorem W7_v6 (c : Dev nD) : W7 m ρ c (Proc.devRef .tc main_v6) = Cert.ReferenceIdeal.ReadP.val_main_v6 (F := Ideal) (m ((c : Thread nD τ).loc main_arg1)) :=
  calc W7 m ρ c (Proc.devRef .tc main_v6)
    _ = W6 m ρ c (Proc.devRef .tc main_v6) := by not_written hostOps1_2
    _ = W5 m ρ c (Proc.devRef .tc main_v6) := by not_written hostOps1_1
    _ = W4 m ρ c (Proc.devRef .tc main_v6) := by not_written hostOps1
    _ = _ := W4_v6 m ρ c
theorem W7_v29 (c : Dev nD) : W7 m ρ c (Proc.devRef .tc main_v29) = Cert.ReferenceIdeal.ReadP.val_main_v29 (F := Ideal) (m ((c : Thread nD τ).loc main_arg1)) :=
  calc W7 m ρ c (Proc.devRef .tc main_v29)
    _ = W6 m ρ c (Proc.devRef .tc main_v29) := by not_written hostOps1_2
    _ = W5 m ρ c (Proc.devRef .tc main_v29) := by not_written hostOps1_1
    _ = W4 m ρ c (Proc.devRef .tc main_v29) := by not_written hostOps1
    _ = _ := W4_v29 m ρ c
theorem W7_arg6 (c : Dev nD) : W7 m ρ c (Proc.devRef .tc main_arg6) = (m ((c : Thread nD τ).loc main_arg6)) :=
  calc W7 m ρ c (Proc.devRef .tc main_arg6)
    _ = W6 m ρ c (Proc.devRef .tc main_arg6) := by not_written hostOps1_2
    _ = W5 m ρ c (Proc.devRef .tc main_arg6) := by not_written hostOps1_1
    _ = W4 m ρ c (Proc.devRef .tc main_arg6) := by not_written hostOps1
    _ = _ := W4_arg6 m ρ c
theorem W7_arg7 (c : Dev nD) : W7 m ρ c (Proc.devRef .tc main_arg7) = (m ((c : Thread nD τ).loc main_arg7)) :=
  calc W7 m ρ c (Proc.devRef .tc main_arg7)
    _ = W6 m ρ c (Proc.devRef .tc main_arg7) := by not_written hostOps1_2
    _ = W5 m ρ c (Proc.devRef .tc main_arg7) := by not_written hostOps1_1
    _ = W4 m ρ c (Proc.devRef .tc main_arg7) := by not_written hostOps1
    _ = _ := W4_arg7 m ρ c
theorem W7_arg8 (c : Dev nD) : W7 m ρ c (Proc.devRef .tc main_arg8) = (m ((c : Thread nD τ).loc main_arg8)) :=
  calc W7 m ρ c (Proc.devRef .tc main_arg8)
    _ = W6 m ρ c (Proc.devRef .tc main_arg8) := by not_written hostOps1_2
    _ = W5 m ρ c (Proc.devRef .tc main_arg8) := by not_written hostOps1_1
    _ = W4 m ρ c (Proc.devRef .tc main_arg8) := by not_written hostOps1
    _ = _ := W4_arg8 m ρ c
theorem W7_arg9 (c : Dev nD) : W7 m ρ c (Proc.devRef .tc main_arg9) = (m ((c : Thread nD τ).loc main_arg9)) :=
  calc W7 m ρ c (Proc.devRef .tc main_arg9)
    _ = W6 m ρ c (Proc.devRef .tc main_arg9) := by not_written hostOps1_2
    _ = W5 m ρ c (Proc.devRef .tc main_arg9) := by not_written hostOps1_1
    _ = W4 m ρ c (Proc.devRef .tc main_arg9) := by not_written hostOps1
    _ = _ := W4_arg9 m ρ c

/-! ## The second pallas_call -/

/-- The second call's output: `x_comb`. -/
theorem W8_v51 (c : Dev nD) :
    W8 m ρ c (Proc.devRef .tc main_v51) = Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 5).trans ((Cert.KernelIdeal.Region1.value (V7 m ρ) c).trans
    ((twoDotRelu_congr (M := 50000) (K := 128) (N := 128) (W7_v47 m ρ c) (W7_arg0 m ρ c) (W7_v48 m ρ c) (W7_v49 m ρ c) (W7_v50 m ρ c)).trans
      (Cert.RefStages.stage_v55 _ _ _ _ _ _).symm))

theorem W8_v3 (c : Dev nD) : W8 m ρ c (Proc.devRef .tc main_v3) = Cert.ReferenceIdeal.ReadP.val_main_v3 (F := Ideal) (m ((c : Thread nD τ).loc main_arg1)) :=
  (W8_of_ne m ρ c main_v3 (by decide)).trans (W7_v3 m ρ c)
theorem W8_v6 (c : Dev nD) : W8 m ρ c (Proc.devRef .tc main_v6) = Cert.ReferenceIdeal.ReadP.val_main_v6 (F := Ideal) (m ((c : Thread nD τ).loc main_arg1)) :=
  (W8_of_ne m ρ c main_v6 (by decide)).trans (W7_v6 m ρ c)
theorem W8_v29 (c : Dev nD) : W8 m ρ c (Proc.devRef .tc main_v29) = Cert.ReferenceIdeal.ReadP.val_main_v29 (F := Ideal) (m ((c : Thread nD τ).loc main_arg1)) :=
  (W8_of_ne m ρ c main_v29 (by decide)).trans (W7_v29 m ρ c)
theorem W8_arg6 (c : Dev nD) : W8 m ρ c (Proc.devRef .tc main_arg6) = (m ((c : Thread nD τ).loc main_arg6)) :=
  (W8_of_ne m ρ c main_arg6 (by decide)).trans (W7_arg6 m ρ c)
theorem W8_arg7 (c : Dev nD) : W8 m ρ c (Proc.devRef .tc main_arg7) = (m ((c : Thread nD τ).loc main_arg7)) :=
  (W8_of_ne m ρ c main_arg7 (by decide)).trans (W7_arg7 m ρ c)
theorem W8_arg8 (c : Dev nD) : W8 m ρ c (Proc.devRef .tc main_arg8) = (m ((c : Thread nD τ).loc main_arg8)) :=
  (W8_of_ne m ρ c main_arg8 (by decide)).trans (W7_arg8 m ρ c)
theorem W8_arg9 (c : Dev nD) : W8 m ρ c (Proc.devRef .tc main_arg9) = (m ((c : Thread nD τ).loc main_arg9)) :=
  (W8_of_ne m ρ c main_arg9 (by decide)).trans (W7_arg9 m ρ c)

end Cert.KernelIdeal.Walk
end
-- ==== Proof.WalkC.lean ====
/-
  From the second pallas_call's exit to the result: `h2`, the second aggregation, the output layer.

  The third call computes `h2 = x_comb · W2ᵀ` (the reference's `val_main_v57`). The host gathers, scales,
  scatter-adds and adds the bias `b2` as before, with no clamp: the reference's `val_main_v73`, by the same
  operations on equal inputs; it cuts `Wo` into its two column halves and lays `bo` out as a row. The last call
  computes `twoDot` of these, the reference's `val_main_v79`: a product with the concatenation `[x_agg2 | x_comb]`
  is the sum of the two half products. So the kernel's result buffer ends at the reference's last stage function of
  the ten launch arguments.
-/
import proofs.«124133_j5342939316780_1_alg».proof.Proof.Gen.KernelIdeal.Frame
import proofs.«124133_j5342939316780_1_alg».proof.Proof.RefRead
import proofs.«124133_j5342939316780_1_alg».proof.Proof.RefStages
import proofs.«124133_j5342939316780_1_alg».proof.Proof.Region2
import proofs.«124133_j5342939316780_1_alg».proof.Proof.Region3
import proofs.«124133_j5342939316780_1_alg».proof.Proof.WalkB2
import Idealize.ShloMosaic.Lib.StableHlo.Run

set_option maxRecDepth 16384

noncomputable section

namespace Cert.KernelIdeal.Walk
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a literal stretch writes keeps its contents across the stretch. -/
local macro "not_written" ops:ident : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## The third pallas_call -/

/-- The third call's output: `h2 = x_comb · W2ᵀ`. -/
theorem W9_v52 (c : Dev nD) :
    W9 m ρ c (Proc.devRef .tc main_v52) = Cert.ReferenceIdeal.ReadP.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_arr m ρ c 2).trans ((Cert.KernelIdeal.Region2.value (V8 m ρ) c).trans
    ((rowsDot_congr (M := 50000) (K := 128) (N := 128) (W8_v51 m ρ c) (W8_arg6 m ρ c)).trans
      (Cert.RefStages.stage_v57 _ _ _ _ _ _ _).symm))

/-- `x_comb` is an input window's array of the third call: the call leaves it as entered. -/
theorem W9_v51 (c : Dev nD) :
    W9 m ρ c (Proc.devRef .tc main_v51) = Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W9_arr m ρ c 0).trans (((dat2 (V8 m ρ) c).arrAt_in 0 rfl _).trans (A_eq2 (V8 m ρ) c 0))).trans (W8_v51 m ρ c)

theorem W9_v3 (c : Dev nD) : W9 m ρ c (Proc.devRef .tc main_v3) = Cert.ReferenceIdeal.ReadP.val_main_v3 (F := Ideal) (m ((c : Thread nD τ).loc main_arg1)) :=
  (W9_of_ne m ρ c main_v3 (by decide)).trans (W8_v3 m ρ c)
theorem W9_v6 (c : Dev nD) : W9 m ρ c (Proc.devRef .tc main_v6) = Cert.ReferenceIdeal.ReadP.val_main_v6 (F := Ideal) (m ((c : Thread nD τ).loc main_arg1)) :=
  (W9_of_ne m ρ c main_v6 (by decide)).trans (W8_v6 m ρ c)
theorem W9_v29 (c : Dev nD) : W9 m ρ c (Proc.devRef .tc main_v29) = Cert.ReferenceIdeal.ReadP.val_main_v29 (F := Ideal) (m ((c : Thread nD τ).loc main_arg1)) :=
  (W9_of_ne m ρ c main_v29 (by decide)).trans (W8_v29 m ρ c)
theorem W9_arg7 (c : Dev nD) : W9 m ρ c (Proc.devRef .tc main_arg7) = (m ((c : Thread nD τ).loc main_arg7)) :=
  (W9_of_ne m ρ c main_arg7 (by decide)).trans (W8_arg7 m ρ c)
theorem W9_arg8 (c : Dev nD) : W9 m ρ c (Proc.devRef .tc main_arg8) = (m ((c : Thread nD τ).loc main_arg8)) :=
  (W9_of_ne m ρ c main_arg8 (by decide)).trans (W8_arg8 m ρ c)
theorem W9_arg9 (c : Dev nD) : W9 m ρ c (Proc.devRef .tc main_arg9) = (m ((c : Thread nD τ).loc main_arg9)) :=
  (W9_of_ne m ρ c main_arg9 (by decide)).trans (W8_arg9 m ρ c)

/-! ## The host stretch before the last call, read over any contents `W` -/

set_option maxHeartbeats 4000000 in
/-- Gather `h2` at the source ids, scale by the edge coefficients, scatter-add at the destination ids, add `b2`. -/
theorem st3_v68 (W : Valuation τ sig (Elt Ideal)) (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (h6 : W (Proc.devRef .tc main_v6) = Cert.ReferenceIdeal.ReadP.val_main_v6 (F := Ideal) x1)
    (h52 : W (Proc.devRef .tc main_v52) = Cert.ReferenceIdeal.ReadP.val_main_v57 (F := Ideal) x0 x1 x2 x3 x4 x5 x6)
    (h3 : W (Proc.devRef .tc main_v3) = Cert.ReferenceIdeal.ReadP.val_main_v3 (F := Ideal) x1)
    (h29 : W (Proc.devRef .tc main_v29) = Cert.ReferenceIdeal.ReadP.val_main_v29 (F := Ideal) x1)
    (hb : W (Proc.devRef .tc main_arg7) = x7) :
    StableHlo.after hostOps3 W (Proc.devRef .tc main_v68) = Cert.ReferenceIdeal.ReadP.val_main_v73 (F := Ideal) x0 x1 x2 x3 x4 x5 x6 x7 := by
  after_results_simp
  rw [h6, h52, h3, h29, hb]
  rfl

set_option maxHeartbeats 4000000 in
/-- The left half of `Wo`'s columns. -/
theorem st3_v69 (W : Valuation τ sig (Elt Ideal)) (x8 : (⟨S64x256, .f32⟩ : BufTy).Contents (Elt Ideal)) (h : W (Proc.devRef .tc main_arg8) = x8) :
    StableHlo.after hostOps3 W (Proc.devRef .tc main_v69) = extractStridedSlice S64x128 ![0, 0] x8 slices_S64x256_S64x128_0_0 := by
  after_results_simp
  rw [h]

set_option maxHeartbeats 4000000 in
/-- The right half of `Wo`'s columns. -/
theorem st3_v70 (W : Valuation τ sig (Elt Ideal)) (x8 : (⟨S64x256, .f32⟩ : BufTy).Contents (Elt Ideal)) (h : W (Proc.devRef .tc main_arg8) = x8) :
    StableHlo.after hostOps3 W (Proc.devRef .tc main_v70) = extractStridedSlice S64x128 ![0, 128] x8 slices_S64x256_S64x128_0_128 := by
  after_results_simp
  rw [h]

set_option maxHeartbeats 4000000 in
/-- The bias `bo` laid out as a row. -/
theorem st3_v71 (W : Valuation τ sig (Elt Ideal)) (x9 : (⟨S64, .f32⟩ : BufTy).Contents (Elt Ideal)) (h : W (Proc.devRef .tc main_arg9) = x9) :
    StableHlo.after hostOps3 W (Proc.devRef .tc main_v71) = shapeCast S1x64 x9 shapeCasts_S64_S1x64 := by
  after_results_simp
  rw [h]
  rfl

/-! ## The same at the run's boundary -/

/-- `x_agg2 = scatter-add(gather(h2, src) · norm, dst) + b2`: the reference's operations on equal inputs. -/
theorem W10_v68 (c : Dev nD) :
    W10 m ρ c (Proc.devRef .tc main_v68) = Cert.ReferenceIdeal.ReadP.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  st3_v68 (W9 m ρ c) _ _ _ _ _ _ _ _ (W9_v6 m ρ c) (W9_v52 m ρ c) (W9_v3 m ρ c) (W9_v29 m ρ c) (W9_arg7 m ρ c)
theorem W10_v69 (c : Dev nD) :
    W10 m ρ c (Proc.devRef .tc main_v69) = extractStridedSlice S64x128 ![0, 0] (m ((c : Thread nD τ).loc main_arg8)) slices_S64x256_S64x128_0_0 :=
  st3_v69 (W9 m ρ c) _ (W9_arg8 m ρ c)
theorem W10_v70 (c : Dev nD) :
    W10 m ρ c (Proc.devRef .tc main_v70) = extractStridedSlice S64x128 ![0, 128] (m ((c : Thread nD τ).loc main_arg8)) slices_S64x256_S64x128_0_128 :=
  st3_v70 (W9 m ρ c) _ (W9_arg8 m ρ c)
theorem W10_v71 (c : Dev nD) :
    W10 m ρ c (Proc.devRef .tc main_v71) = shapeCast S1x64 (m ((c : Thread nD τ).loc main_arg9)) shapeCasts_S64_S1x64 :=
  st3_v71 (W9 m ρ c) _ (W9_arg9 m ρ c)

/-- `x_comb` is not written by the stretch. -/
theorem W10_v51 (c : Dev nD) :
    W10 m ρ c (Proc.devRef .tc main_v51) = Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc W10 m ρ c (Proc.devRef .tc main_v51)
    _ = W9 m ρ c (Proc.devRef .tc main_v51) := by not_written hostOps3
    _ = _ := W9_v51 m ρ c

/-! ## The last pallas_call -/

/-- The kernel's result buffer ends at the reference's last stage function of the ten launch arguments. -/
theorem result (c : Dev nD) :
    W11 m ρ c (Proc.devRef .tc main_v72) = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W11_arr m ρ c 5).trans ((Cert.KernelIdeal.Region3.value (V10 m ρ) c).trans
    ((twoDot_congr (M := 50000) (K := 128) (N := 64) (W10_v68 m ρ c) (W10_v51 m ρ c) (W10_v69 m ρ c) (W10_v70 m ρ c) (W10_v71 m ρ c)).trans
      (Cert.RefStages.stage_v79 _ _ _ _ _ _ _ _ _ _).symm))

end Cert.KernelIdeal.Walk
end
-- ==== Proof.lean ====
/-
  The certificate of a two-layer graph convolution with concatenation: the Pallas program against its jnp reference.

  Both programs compute, from the edge list alone, the node ids with self-loops and the symmetric normalisation
  coefficient of every edge, by the same operations. The reference then computes
  `x_agg = relu(A (x · W1ᵀ) + b1)`, `x_comb = relu([x_agg | x] · Wcᵀ + bc)`, `x_agg2 = A (x_comb · W2ᵀ) + b2` and
  `out = [x_agg2 | x_comb] · Woᵀ + bo`, where `A` gathers rows at the source ids, scales them by the coefficients and
  scatter-adds them at the destination ids. The kernel computes the four products in four pallas_calls tiled over
  blocks of 2000 rows, the two products with a concatenation as a sum of two products with the halves of the weight,
  and leaves the gathers and scatter-adds to the host, where they are the reference's own operations.

  On the extended reals a change of float format is the identity, a product into a zero accumulator is the plain sum,
  and a finite sum over 256 positions is the sum of its two halves (addition is commutative and associative there, so
  no finiteness is used and the precondition is never opened). So the kernel's result buffer ends at the reference's
  last stage function of the ten arguments (`Walk.result`, over the region values of `Region0` … `Region3` and the
  reference's products read in `RefStages`), and so does the reference's (`RefWalk.result`).
  The three frames: the two kernels' are the generated frame certificates; the reference's is its run with the result
  dropped. The idealization rewrote no operation, so `preserves` asks nothing.
-/
import proofs.«124133_j5342939316780_1_alg».proof.Defs
import proofs.«124133_j5342939316780_1_alg».proof.Proof.Gen.Kernel
import proofs.«124133_j5342939316780_1_alg».proof.Proof.Gen.Kernel.Frame
import proofs.«124133_j5342939316780_1_alg».proof.Proof.Gen.KernelIdeal
import proofs.«124133_j5342939316780_1_alg».proof.Proof.Gen.KernelIdeal.Frame
import proofs.«124133_j5342939316780_1_alg».proof.Proof.Gen.ReferenceIdeal
import proofs.«124133_j5342939316780_1_alg».proof.Proof.Gen.Pre_finite_inputs
import proofs.«124133_j5342939316780_1_alg».proof.Proof.RefRun
import proofs.«124133_j5342939316780_1_alg».proof.Proof.RefRead
import proofs.«124133_j5342939316780_1_alg».proof.Proof.RefWalk
import proofs.«124133_j5342939316780_1_alg».proof.Proof.KRun
import proofs.«124133_j5342939316780_1_alg».proof.Proof.WalkC
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    intro m ρ _
    exact (θ_run Cert.ReferenceIdeal.defs _ _).mono (fun _ h c => (h c).2) (Cert.ReferenceIdeal.ValueP.run (F := Ideal) m ρ)
  · -- both runs end with the result at the reference's last stage function of the (agreeing) arguments
    intro m ρ m' ρ' _ hagree
    refine ⟨fun c => Cert.ReferenceIdeal.ReadP.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
    · exact (θ_run Cert.KernelIdeal.defs _ _).mono
        (fun r h c => ⟨(h c).1.trans (Cert.KernelIdeal.Walk.result m ρ c), (h c).2⟩)
        (Cert.KernelIdeal.GenRun.run_result m ρ)
    · refine (θ_run Cert.ReferenceIdeal.defs _ _).mono (fun r h c => ⟨(h c).1.trans ?_, (h c).2⟩)
        (Cert.ReferenceIdeal.ValueP.run (F := Ideal) m' ρ')
      rw [Cert.ReferenceIdeal.RefWalk.result m' c]
      obtain ⟨e0, e1, e2, e3, e4, e5, e6, e7, e8, e9⟩ := hagree c
      rw [e0, e1, e2, e3, e4, e5, e6, e7, e8, e9]⟩

end Cert.Proof

end
